-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S65536 : Shape := ⟨1, ![65536]⟩
abbrev S1024 : Shape := ⟨1, ![1024]⟩
abbrev S8192 : Shape := ⟨1, ![8192]⟩
abbrev S8 : Shape := ⟨1, ![8]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1024 : S_.BroadcastsInDim S1024 (![] : Fin 0 → Fin S1024.rank)
  reducesTo_S1024_S_d0 : S1024.ReducesTo [0] S_
  bcast_S_S8192 : S_.BroadcastsInDim S8192 (![] : Fin 0 → Fin S8192.rank)
  reducesTo_S8192_S_d0 : S8192.ReducesTo [0] S_
  bcast_S_S8 : S_.BroadcastsInDim S8 (![] : Fin 0 → Fin S8.rank)
  reducesTo_S8_S_d0 : S8.ReducesTo [0] S_

variable [Facts]

def fn_part3 {F : FTy → Type} [FloatOps F] (main_v44 : IVec S_ 1) (main_v49 : IVec S8192 1) (main_c_19 : IVec S_ 1) : IVec S_ 1 :=
  let main_v50 : IVec S_ 1 := (fun x v => Host.reduce IntOp.andi x v reducesTo_S8192_S_d0 h_S_) main_v49 main_c_19
  let main_v51 : IVec S_ 1 := andi main_v44 main_v50
  main_v51

def fn_part2 {F : FTy → Type} [FloatOps F] (main_arg6 : IVec S65536 32) (main_arg7 : IVec S8192 32) (main_arg8 : IVec S8192 32) (main_v30 : IVec S_ 1) (main_v32 : IVec S65536 1) (main_c_12 : IVec S_ 32) : IVec S_ 1 :=
  let main_v33 : IVec S65536 32 := broadcastInDim S65536 ![] bcast_S_S65536 main_c_12
  let main_v34 : IVec S65536 1 := cmpi .slt main_arg6 main_v33
  let main_v35 : IVec S65536 1 := andi main_v32 main_v34
  let main_c_13 : IVec S_ 1 := constantI S_ 1 1#1
  let main_v36 : IVec S_ 1 := (fun x v => Host.reduce IntOp.andi x v reducesTo_S65536_S_d0 h_S_) main_v35 main_c_13
  let main_v37 : IVec S_ 1 := andi main_v30 main_v36
  let main_c_14 : IVec S_ 32 := constantI S_ 32 0#32
  let main_v38 : IVec S8192 32 := broadcastInDim S8192 ![] bcast_S_S8192 main_c_14
  let main_v39 : IVec S8192 1 := cmpi .sge main_arg7 main_v38
  let main_c_15 : IVec S_ 32 := constantI S_ 32 8#32
  let main_v40 : IVec S8192 32 := broadcastInDim S8192 ![] bcast_S_S8192 main_c_15
  let main_v41 : IVec S8192 1 := cmpi .slt main_arg7 main_v40
  let main_v42 : IVec S8192 1 := andi main_v39 main_v41
  let main_c_16 : IVec S_ 1 := constantI S_ 1 1#1
  let main_v43 : IVec S_ 1 := (fun x v => Host.reduce IntOp.andi x v reducesTo_S8192_S_d0 h_S_) main_v42 main_c_16
  let main_v44 : IVec S_ 1 := andi main_v37 main_v43
  let main_c_17 : IVec S_ 32 := constantI S_ 32 0#32
  let main_v45 : IVec S8192 32 := broadcastInDim S8192 ![] bcast_S_S8192 main_c_17
  let main_v46 : IVec S8192 1 := cmpi .sge main_arg8 main_v45
  let main_c_18 : IVec S_ 32 := constantI S_ 32 1024#32
  let main_v47 : IVec S8192 32 := broadcastInDim S8192 ![] bcast_S_S8192 main_c_18
  let main_v48 : IVec S8192 1 := cmpi .slt main_arg8 main_v47
  let main_v49 : IVec S8192 1 := andi main_v46 main_v48
  let main_c_19 : IVec S_ 1 := constantI S_ 1 1#1
  fn_part3 (F := F) main_v44 main_v49 main_c_19

def fn_part1 {F : FTy → Type} [FloatOps F] (main_arg4 : FVec F S8 .f32) (main_arg5 : IVec S65536 32) (main_arg6 : IVec S65536 32) (main_arg7 : IVec S8192 32) (main_arg8 : IVec S8192 32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_c_8 : IVec S_ 32 := constantI S_ 32 0#32
  let main_v24 : IVec S65536 32 := broadcastInDim S65536 ![] bcast_S_S65536 main_c_8
  let main_v25 : IVec S65536 1 := cmpi .sge main_arg5 main_v24
  let main_c_9 : IVec S_ 32 := constantI S_ 32 1024#32
  let main_v26 : IVec S65536 32 := broadcastInDim S65536 ![] bcast_S_S65536 main_c_9
  let main_v27 : IVec S65536 1 := cmpi .slt main_arg5 main_v26
  let main_v28 : IVec S65536 1 := andi main_v25 main_v27
  let main_c_10 : IVec S_ 1 := constantI S_ 1 1#1
  let main_v29 : IVec S_ 1 := (fun x v => Host.reduce IntOp.andi x v reducesTo_S65536_S_d0 h_S_) main_v28 main_c_10
  let main_v30 : IVec S_ 1 := andi main_v23 main_v29
  let main_c_11 : IVec S_ 32 := constantI S_ 32 0#32
  let main_v31 : IVec S65536 32 := broadcastInDim S65536 ![] bcast_S_S65536 main_c_11
  let main_v32 : IVec S65536 1 := cmpi .sge main_arg6 main_v31
  let main_c_12 : IVec S_ 32 := constantI S_ 32 2048#32
  fn_part2 (F := F) main_arg6 main_arg7 main_arg8 main_v30 main_v32 main_c_12

def fn {F : FTy → Type} [FloatOps F] (main_arg0 : FVec F S4096x2048 .f32) (main_arg1 : FVec F S65536 .f32) (main_arg2 : FVec F S1024 .f32) (main_arg3 : FVec F S8192 .f32) (main_arg4 : FVec F S8 .f32) (main_arg5 : IVec S65536 32) (main_arg6 : IVec S65536 32) (main_arg7 : IVec S8192 32) (main_arg8 : IVec S8192 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S65536 : Shape := ⟨1, ![65536]⟩
abbrev S1024 : Shape := ⟨1, ![1024]⟩
abbrev S8192 : Shape := ⟨1, ![8192]⟩
abbrev S8 : Shape := ⟨1, ![8]⟩
abbrev S_ : Shape := ⟨0, ![]⟩
abbrev S2097152 : Shape := ⟨1, ![2097152]⟩
abbrev S65536x1 : Shape := ⟨2, ![65536, 1]⟩
abbrev S2048x1024 : Shape := ⟨2, ![2048, 1024]⟩
abbrev S8192x1 : Shape := ⟨2, ![8192, 1]⟩
abbrev S1024x8 : Shape := ⟨2, ![1024, 8]⟩
abbrev S1x1024 : Shape := ⟨2, ![1, 1024]⟩
abbrev S1x8 : Shape := ⟨2, ![1, 8]⟩
abbrev S4096x8 : Shape := ⟨2, ![4096, 8]⟩
abbrev S512x2048 : Shape := ⟨2, ![512, 2048]⟩
abbrev S512x8 : Shape := ⟨2, ![512, 8]⟩
abbrev S512x1024 : Shape := ⟨2, ![512, 1024]⟩

abbrev nBuf : Space → Nat
  | .hbm => 32
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S65536, .f32⟩
  | .hbm, ⟨2, _⟩ => ⟨S1024, .f32⟩
  | .hbm, ⟨3, _⟩ => ⟨S8192, .f32⟩
  | .hbm, ⟨4, _⟩ => ⟨S8, .f32⟩
  | .hbm, ⟨5, _⟩ => ⟨S65536, .i32⟩
  | .hbm, ⟨6, _⟩ => ⟨S65536, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .f32⟩
  | .hbm, ⟨14, _⟩ => ⟨S2097152, .f32⟩
  | .hbm, ⟨15, _⟩ => ⟨S65536x1, .i32⟩
  | .hbm, ⟨16, _⟩ => ⟨S2097152, .f32⟩
  | .hbm, ⟨17, _⟩ => ⟨S2097152, .bf16⟩
  | .hbm, ⟨18, _⟩ => ⟨S2048x1024, .bf16⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .f32⟩
  | .hbm, ⟨24, _⟩ => ⟨S8192, .f32⟩
  | .hbm, ⟨25, _⟩ => ⟨S8192x1, .i32⟩
  | .hbm, ⟨26, _⟩ => ⟨S8192, .f32⟩
  | .hbm, ⟨27, _⟩ => ⟨S8192, .bf16⟩
  | .hbm, ⟨28, _⟩ => ⟨S1024x8, .bf16⟩
  | .hbm, ⟨29, _⟩ => ⟨S1x1024, .f32⟩
  | .hbm, ⟨30, _⟩ => ⟨S1x8, .f32⟩
  | .hbm, ⟨31, _⟩ => ⟨S4096x8, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x8, .bf16⟩
  | .local _ .vmem, ⟨5, _⟩ => ⟨S1x8, .f32⟩
  | .local _ .vmem, ⟨6, _⟩ => ⟨S512x8, .f32⟩
  | .local _ .vmem, ⟨7, _⟩ => ⟨S512x8, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_c_0 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_cst_1 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S65536 : S_.BroadcastsInDim S65536 (![] : Fin 0 → Fin S65536.rank)
  bcast_S_S2097152 : S_.BroadcastsInDim S2097152 (![] : Fin 0 → Fin S2097152.rank)
  bcast_S65536_S65536x1_0 : S65536.BroadcastsInDim S65536x1 (![0] : Fin 1 → Fin S65536x1.rank)
  bitsLt_bf16_f32 : FTy.bits .bf16 < FTy.bits .f32
  shapeCasts_S2097152_S2048x1024 : S2097152.ShapeCasts S2048x1024
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S1024x8 : S8192.ShapeCasts S1024x8
  shapeCasts_S1024_S1x1024 : S1024.ShapeCasts S1x1024
  shapeCasts_S8_S1x8 : S8.ShapeCasts S1x8
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S512x8_S512x8_0_0 : ∀ a, (![0, 0] : Fin 2 → Nat) a + S512x8.size a ≤ S512x8.size a
  h_S512x8 : 0 < S512x8.numel
  scatter_S2097152_S65536x1_S65536_n_0_0_1_wf : ScatterDims.WF S2097152 S65536x1 S65536 [] [0] [0] 1
  scatter_S8192_S8192x1_S8192_n_0_0_1_wf : ScatterDims.WF S8192 S8192x1 S8192 [] [0] [0] 1
  dot_S512x2048_S2048x1024_S512x1024_1_0_0_1_n_n_wf : DotDims.WF S512x2048 S2048x1024 S512x1024 [1] [0] [0] [1] [] []
  dot_S512x1024_S1024x8_S512x8_1_0_0_1_n_n_wf : DotDims.WF S512x1024 S1024x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S1024x8.size a
  hwx0_3 : ∀ i : grid0.Coords, EltTy.bits .bf16 = 32 ∨ (Rect.block (s := S1024x8) S1024x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8.size a ≤ S4096x8.size a
  hwx0_5 : ∀ i : grid0.Coords, EltTy.bits .f32 = 32 ∨ (Rect.block (s := S4096x8) S512x8.size (cc0_transform_5 i) (hinb0_5 i)).WholeWords (EltTy.packing .f32)

variable [Facts₀]

def scatter_S2097152_S65536x1_S65536_n_0_0_1 : ScatterDims S2097152 S65536x1 S65536 where
  updateWindowDims := []
  insertedWindowDims := [0]
  scatterDimsToOperandDims := [0]
  indexVectorDim := 1
  wf := scatter_S2097152_S65536x1_S65536_n_0_0_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x8_S512x8_1_0_0_1_n_n : DotDims S512x1024 S1024x8 S512x8 where
  lhsContracting := [1]
  rhsContracting := [0]
  lhsNonContracting := [0]
  rhsNonContracting := [1]
  lhsBatch := []
  rhsBatch := []
  wf := dot_S512x1024_S1024x8_S512x8_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S1024x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S65536 : Shape := ⟨1, ![65536]⟩
abbrev S1024 : Shape := ⟨1, ![1024]⟩
abbrev S8192 : Shape := ⟨1, ![8192]⟩
abbrev S8 : Shape := ⟨1, ![8]⟩
abbrev S_ : Shape := ⟨0, ![]⟩
abbrev S65536x1 : Shape := ⟨2, ![65536, 1]⟩
abbrev S4096x65536 : Shape := ⟨2, ![4096, 65536]⟩
abbrev S1x65536 : Shape := ⟨2, ![1, 65536]⟩
abbrev S65536x4096 : Shape := ⟨2, ![65536, 4096]⟩
abbrev S1024x4096 : Shape := ⟨2, ![1024, 4096]⟩
abbrev S4096x1024 : Shape := ⟨2, ![4096, 1024]⟩
abbrev S1x1024 : Shape := ⟨2, ![1, 1024]⟩
abbrev S8192x1 : Shape := ⟨2, ![8192, 1]⟩
abbrev S4096x8192 : Shape := ⟨2, ![4096, 8192]⟩
abbrev S1x8192 : Shape := ⟨2, ![1, 8192]⟩
abbrev S8192x4096 : Shape := ⟨2, ![8192, 4096]⟩
abbrev S8x4096 : Shape := ⟨2, ![8, 4096]⟩
abbrev S4096x8 : Shape := ⟨2, ![4096, 8]⟩
abbrev S1x8 : Shape := ⟨2, ![1, 8]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S65536, .f32⟩
  | .hbm, ⟨2, _⟩ => ⟨S1024, .f32⟩
  | .hbm, ⟨3, _⟩ => ⟨S8192, .f32⟩
  | .hbm, ⟨4, _⟩ => ⟨S8, .f32⟩
  | .hbm, ⟨5, _⟩ => ⟨S65536, .i32⟩
  | .hbm, ⟨6, _⟩ => ⟨S65536, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S4096x65536, .f32⟩
  | .hbm, ⟨18, _⟩ => ⟨S1x65536, .f32⟩
  | .hbm, ⟨19, _⟩ => ⟨S4096x65536, .f32⟩
  | .hbm, ⟨20, _⟩ => ⟨S4096x65536, .f32⟩
  | .hbm, ⟨21, _⟩ => ⟨S65536x4096, .f32⟩
  | .hbm, ⟨22, _⟩ => ⟨S_, .f32⟩
  | .hbm, ⟨23, _⟩ => ⟨S1024x4096, .f32⟩
  | .hbm, ⟨24, _⟩ => ⟨S65536x1, .i32⟩
  | .hbm, ⟨25, _⟩ => ⟨S1024x4096, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S4096x8192, .f32⟩
  | .hbm, ⟨47, _⟩ => ⟨S1x8192, .f32⟩
  | .hbm, ⟨48, _⟩ => ⟨S4096x8192, .f32⟩
  | .hbm, ⟨49, _⟩ => ⟨S4096x8192, .f32⟩
  | .hbm, ⟨50, _⟩ => ⟨S8192x4096, .f32⟩
  | .hbm, ⟨51, _⟩ => ⟨S_, .f32⟩
  | .hbm, ⟨52, _⟩ => ⟨S8x4096, .f32⟩
  | .hbm, ⟨53, _⟩ => ⟨S8192x1, .i32⟩
  | .hbm, ⟨54, _⟩ => ⟨S8x4096, .f32⟩
  | .hbm, ⟨55, _⟩ => ⟨S4096x8, .f32⟩
  | .hbm, ⟨56, _⟩ => ⟨S1x8, .f32⟩
  | .hbm, ⟨57, _⟩ => ⟨S4096x8, .f32⟩
  | .hbm, ⟨58, _⟩ => ⟨S4096x8, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S1x65536_S4096x65536_0_1 : S1x65536.BroadcastsInDim S4096x65536 (![0, 1] : Fin 2 → Fin S4096x65536.rank)
  transposes_S4096x65536_S65536x4096_1_0 : S4096x65536.Transposes [1, 0] S65536x4096
  bcast_S_S1024x4096 : S_.BroadcastsInDim S1024x4096 (![] : Fin 0 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S4096x8192_S8192x4096_1_0 : S4096x8192.Transposes [1, 0] S8192x4096
  bcast_S_S8x4096 : S_.BroadcastsInDim S8x4096 (![] : Fin 0 → Fin S8x4096.rank)
  transposes_S8x4096_S4096x8_1_0 : S8x4096.Transposes [1, 0] S4096x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  gather_S4096x2048_S65536x1_S4096x65536_0_1_n_n_1_1_40961_wf : GatherDims.WF S4096x2048 S65536x1 S4096x65536 [0] [1] [] [1] [] 1 ![4096, 1]
  scatter_S1024x4096_S65536x1_S65536x4096_1_0_0_1_wf : ScatterDims.WF S1024x4096 S65536x1 S65536x4096 [1] [0] [0] 1
  gather_S4096x1024_S8192x1_S4096x8192_0_1_n_n_1_1_40961_wf : GatherDims.WF S4096x1024 S8192x1 S4096x8192 [0] [1] [] [1] [] 1 ![4096, 1]
  scatter_S8x4096_S8192x1_S8192x4096_1_0_0_1_wf : ScatterDims.WF S8x4096 S8192x1 S8192x4096 [1] [0] [0] 1

variable [Facts₀]

def gather_S4096x2048_S65536x1_S4096x65536_0_1_n_n_1_1_40961 : GatherDims S4096x2048 S65536x1 S4096x65536 where
  offsetDims := [0]
  collapsedSliceDims := [1]
  operandBatchingDims := []
  startIndicesBatchingDims := []
  startIndexMap := [1]
  indexVectorDim := 1
  sliceSizes := ![4096, 1]
  wf := gather_S4096x2048_S65536x1_S4096x65536_0_1_n_n_1_1_40961_wf
def scatter_S1024x4096_S65536x1_S65536x4096_1_0_0_1 : ScatterDims S1024x4096 S65536x1 S65536x4096 where
  updateWindowDims := [1]
  insertedWindowDims := [0]
  scatterDimsToOperandDims := [0]
  indexVectorDim := 1
  wf := scatter_S1024x4096_S65536x1_S65536x4096_1_0_0_1_wf
def gather_S4096x1024_S8192x1_S4096x8192_0_1_n_n_1_1_40961 : GatherDims S4096x1024 S8192x1 S4096x8192 where
  offsetDims := [0]
  collapsedSliceDims := [1]
  operandBatchingDims := []
  startIndicesBatchingDims := []
  startIndexMap := [1]
  indexVectorDim := 1
  sliceSizes := ![4096, 1]
  wf := gather_S4096x1024_S8192x1_S4096x8192_0_1_n_n_1_1_40961_wf
def scatter_S8x4096_S8192x1_S8192x4096_1_0_0_1 : ScatterDims S8x4096 S8192x1 S8192x4096 where
  updateWindowDims := [1]
  insertedWindowDims := [0]
  scatterDimsToOperandDims := [0]
  indexVectorDim := 1
  wf := scatter_S8x4096_S8192x1_S8192x4096_1_0_0_1_wf

class Facts : Prop extends Facts₀ where

variable [Facts]
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelBlocks.lean ====
/-
  The kernel's output array as one function of the arrays its region finds.

  One grid point takes 512 rows of the batch, multiplies them by the whole `[2048, 1024]` first-layer matrix, adds the
  bias row, applies the logistic, multiplies by the whole `[1024, 8]` second-layer matrix and adds the second bias row;
  its block of the output is rows `512 t … 512 t + 511`. Read at an entry (`pay_apply`) the body is the two plain matrix
  products; the eight blocks tile the `[4096, 8]` output, so the array after the run is the same formula over whole
  arrays (`final`).
-/
import proofs.«424612_j38869454029395_3_alg».proof.Proof.Gen.KernelIdeal.Value
import proofs.«424612_j38869454029395_3_alg».proof.Proof.LibPlainProduct
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The two dense layers over whole arrays: the batch `X`, the transposed weight matrices `W1T`, `W2T` and the bias rows. -/
def DenseArr (X : S4096x2048.Idx → EReal) (W1T : S2048x1024.Idx → EReal) (B1 : S1x1024.Idx → EReal)
    (W2T : S1024x8.Idx → EReal) (B2 : S1x8.Idx → EReal) : S4096x8.Idx → EReal :=
  fun i => (∑ n : Fin 1024, Ideal.logistic ((∑ k : Fin 2048, X (ix2 (i 0) k) * W1T (ix2 k n)) + B1 (ix2 (0 : Fin 1) n))
      * W2T (ix2 n (i 1))) + B2 (ix2 (0 : Fin 1) (i 1))

/-- The body's stored value at entry `(r, t)` of its block. -/
theorem pay_apply (v0 : Vec Ideal S512x2048 .f32) (v2 : Vec Ideal S2048x1024 .bf16) (v5 : Vec Ideal S1x1024 .f32)
    (v11 : Vec Ideal S1024x8 .bf16) (v14 : Vec Ideal S1x8 .f32) (r : Fin 512) (t : Fin 8) :
    k0_pay1 (F := Ideal) v0 v2 v5 v11 v14 (ix2 r t)
      = (∑ n : Fin 1024, Ideal.logistic ((∑ k : Fin 2048, v0 (ix2 r k) * v2 (ix2 k n)) + v5 (ix2 (0 : Fin 1) n))
          * v11 (ix2 n t)) + v14 (ix2 (0 : Fin 1) t) := by
  have h1 : Cert.Lib.PlainProduct.IsPlain dot_S512x2048_S2048x1024_S512x1024_1_0_0_1_n_n := ⟨rfl, rfl, rfl, rfl, rfl, rfl⟩
  have h2 : Cert.Lib.PlainProduct.IsPlain dot_S512x1024_S1024x8_S512x8_1_0_0_1_n_n := ⟨rfl, rfl, rfl, rfl, rfl, rfl⟩
  unfold k0_pay1
  refine congrArg₂ (· + ·) ?_ ?_
  · refine (Cert.Lib.PlainProduct.matmul_zero_apply h2 none _ _ r t).trans ?_
    refine Finset.sum_congr rfl fun n _ => ?_
    refine congrArg₂ (· * ·) ?_ ?_
    · refine congrArg Ideal.logistic ?_
      refine congrArg₂ (· + ·) ?_ ?_
      · refine (Cert.Lib.PlainProduct.matmul_zero_apply h1 none _ _ r n).trans ?_
        refine Finset.sum_congr rfl fun k _ => ?_
        exact congrArg (v0 (ix2 r k) * ·) (congrFun (shapeCast_self v2 _) (ix2 k n))
      · refine (broadcastTo_1b_ab_apply _ _ r n).trans ?_
        exact congrFun (shapeCast_self v5 _) _
    · exact congrFun (shapeCast_self v11 _) _
  · refine (broadcastTo_1b_ab_apply _ _ r t).trans ?_
    exact congrFun (shapeCast_self v14 _) _

/-- The body's stored value at entry `(r, q)` of its block is the dense formula at array index `i`, once each block the
    body loads reads the whole arrays where `i` says: row `r` of the batch block is row `i 0` of the batch, column `q` of the
    second-layer blocks is column `i 1`, and the first-layer blocks are the whole arrays. -/
theorem pay_dense (X : S4096x2048.Idx → EReal) (W1T : S2048x1024.Idx → EReal) (B1 : S1x1024.Idx → EReal)
    (W2T : S1024x8.Idx → EReal) (B2 : S1x8.Idx → EReal)
    (x0 : Vec Ideal S512x2048 .f32) (x1 : Vec Ideal S2048x1024 .bf16) (x2 : Vec Ideal S1x1024 .f32)
    (x3 : Vec Ideal S1024x8 .bf16) (x4 : Vec Ideal S1x8 .f32) (i : S4096x8.Idx) (r : Fin 512) (q : Fin 8)
    (h0 : ∀ k : Fin 2048, x0 (ix2 r k) = X (ix2 (i 0) k))
    (h1 : ∀ (k : Fin 2048) (n : Fin 1024), x1 (ix2 k n) = W1T (ix2 k n))
    (h2 : ∀ n : Fin 1024, x2 (ix2 (0 : Fin 1) n) = B1 (ix2 (0 : Fin 1) n))
    (h3 : ∀ n : Fin 1024, x3 (ix2 n q) = W2T (ix2 n (i 1)))
    (h4 : x4 (ix2 (0 : Fin 1) q) = B2 (ix2 (0 : Fin 1) (i 1))) :
    k0_pay1 (F := Ideal) x0 x1 x2 x3 x4 (ix2 r q) = DenseArr X W1T B1 W2T B2 i := by
  rw [pay_apply]
  unfold DenseArr
  simp only [h0, h1, h2, h3, h4]

variable (m : (ℓ : Loc nD τ sig) → Buf (Elt Ideal) ℓ)

/-- The body's accesses start at offset zero on both axes. -/
theorem zero_offsets : (![0, 0] : Fin 2 → Nat) = fun _ => 0 := funext fun a => by fin_cases a <;> rfl

/-- The printed index maps, decided over the eight grid points: the batch's and the output's blocks are block `(t, 0)`,
    every other window's block is block `(0, 0)`. -/
theorem block_indices : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` writes back is block `t` of the dense formula over the arrays the region finds. -/
theorem flushed_eq (c : Dev nD) (t : Fin cfg0.N) :
    (dats m 0 c).flushed 5 t = ((cfg0.win 5).blk t).view.read (Elt Ideal)
      (DenseArr (V m c main_arg0) (V m c main_call0_v7) (V m c main_call0_v16) (V m c main_call0_v15) (V m c main_call0_v17)) := by
  rw [Value.flushed5]
  unfold out0_5
  rw [View.canon_unit_zero zero_offsets]
  simp only [View.ld_unit_zero (S := S512x2048) zero_offsets, View.ld_unit_zero (S := S2048x1024) zero_offsets,
    View.ld_unit_zero (S := S1x1024) zero_offsets, View.ld_unit_zero (S := S1024x8) zero_offsets,
    View.ld_unit_zero (S := S1x8) zero_offsets]
  obtain ⟨e50, e51, e00, e01, e10, e11, e20, e21, e30, e31, e40, e41⟩ := block_indices t
  funext y
  obtain ⟨r, q, rfl⟩ : ∃ (r : Fin 512) (q : Fin 8), y = ix2 r q := ⟨y 0, y 1, eq_ix2 y⟩
  show k0_pay1 (F := Ideal) (iblk m c 0 t) (iblk m c 1 t) (iblk m c 2 t) (iblk m c 3 t) (iblk m c 4 t) (ix2 r q)
    = DenseArr (V m c main_arg0) (V m c main_call0_v7) (V m c main_call0_v16) (V m c main_call0_v15) (V m c main_call0_v17)
        (((cfg0.win 5).blk t).view.emb (ix2 r q))
  have hi0 : ((((cfg0.win 5).blk t).view.emb (ix2 r q)) 0).val = t.val * 512 + r.val := by
    show win0_5.index t (0 : Fin 2) * 512 + 1 * r.val = _
    rw [e50]; omega
  have hi1 : ((((cfg0.win 5).blk t).view.emb (ix2 r q)) 1).val = q.val := by
    show win0_5.index t (1 : Fin 2) * 8 + 1 * q.val = _
    rw [e51]; omega
  refine pay_dense _ _ _ _ _ _ _ _ _ _ _ r q (fun k => ?_) (fun k n => ?_) (fun n => ?_) (fun n => ?_) ?_
  · show V m c main_arg0 (((cfg0.win 0).blk t).view.emb (ix2 r k)) = V m c main_arg0 (ix2 _ k)
    refine congrArg (V m c main_arg0) (funext fun a => Fin.ext ?_)
    match a with
    | ⟨0, _⟩ =>
      show win0_0.index t (0 : Fin 2) * 512 + 1 * r.val = _
      rw [e00]; exact (by omega : t.val * 512 + 1 * r.val = t.val * 512 + r.val).trans hi0.symm
    | ⟨1, _⟩ =>
      show win0_0.index t (1 : Fin 2) * 2048 + 1 * k.val = k.val
      rw [e01]; omega
  · show V m c main_call0_v7 (((cfg0.win 1).blk t).view.emb (ix2 k n)) = V m c main_call0_v7 (ix2 k n)
    refine congrArg (V m c main_call0_v7) (funext fun a => Fin.ext ?_)
    match a with
    | ⟨0, _⟩ =>
      show win0_1.index t (0 : Fin 2) * 2048 + 1 * k.val = k.val
      rw [e10]; omega
    | ⟨1, _⟩ =>
      show win0_1.index t (1 : Fin 2) * 1024 + 1 * n.val = n.val
      rw [e11]; omega
  · show V m c main_call0_v16 (((cfg0.win 2).blk t).view.emb (ix2 (0 : Fin 1) n)) = V m c main_call0_v16 (ix2 (0 : Fin 1) n)
    refine congrArg (V m c main_call0_v16) (funext fun a => Fin.ext ?_)
    match a with
    | ⟨0, _⟩ =>
      show win0_2.index t (0 : Fin 2) * 1 + 1 * 0 = 0
      rw [e20]
    | ⟨1, _⟩ =>
      show win0_2.index t (1 : Fin 2) * 1024 + 1 * n.val = n.val
      rw [e21]; omega
  · show V m c main_call0_v15 (((cfg0.win 3).blk t).view.emb (ix2 n q)) = V m c main_call0_v15 (ix2 n _)
    refine congrArg (V m c main_call0_v15) (funext fun a => Fin.ext ?_)
    match a with
    | ⟨0, _⟩ =>
      show win0_3.index t (0 : Fin 2) * 1024 + 1 * n.val = n.val
      rw [e30]; omega
    | ⟨1, _⟩ =>
      show win0_3.index t (1 : Fin 2) * 8 + 1 * q.val = _
      rw [e31]; exact (by omega : 0 * 8 + 1 * q.val = q.val).trans hi1.symm
  · show V m c main_call0_v17 (((cfg0.win 4).blk t).view.emb (ix2 (0 : Fin 1) q)) = V m c main_call0_v17 (ix2 (0 : Fin 1) _)
    refine congrArg (V m c main_call0_v17) (funext fun a => Fin.ext ?_)
    match a with
    | ⟨0, _⟩ =>
      show win0_4.index t (0 : Fin 2) * 1 + 1 * 0 = 0
      rw [e40]
    | ⟨1, _⟩ =>
      show win0_4.index t (1 : Fin 2) * 8 + 1 * q.val = _
      rw [e41]; exact (by omega : 0 * 8 + 1 * q.val = q.val).trans hi1.symm

/-- An index of the output array is in point `t`'s block iff each coordinate is in the block's range on its axis. -/
theorem mem_block (t : Fin cfg0.N) (i : S4096x8.Idx) :
    i ∈ ((cfg0.win 5).blk t).view.set ↔ ∀ a : Fin 2, win0_5.index t a * S512x8.size a ≤ (i a).val ∧ (i a).val < win0_5.index t a * S512x8.size a + S512x8.size a := by
  show i ∈ ((View.whole main_v0).slice (win0_5.rect t)).set ↔ _
  rw [View.set_slice_whole, Rect.mem_set_unit]
  exact Iff.rfl

/-- Row `p` of the output is in the block of point `p / 512`: the eight blocks tile the array. -/
theorem cover (i : S4096x8.Idx) : ∃ t : Fin cfg0.N, (cfg0.win 5).flush t = true ∧ i ∈ ((cfg0.win 5).blk t).view.set := by
  have hN : cfg0.N = 8 := N_0
  have hi0 : (i 0).val < 4096 := idx2_lt0 i
  have hi1 : (i 1).val < 8 := idx2_lt1 i
  refine ⟨⟨(i 0).val / 512, by omega⟩, flush0_5 _, ?_⟩
  rw [mem_block]
  obtain ⟨e50, e51, -⟩ := block_indices ⟨(i 0).val / 512, by omega⟩
  intro a
  match a with
  | ⟨0, _⟩ => show win0_5.index _ (0 : Fin 2) * 512 ≤ (i 0).val ∧ (i 0).val < win0_5.index _ (0 : Fin 2) * 512 + 512; rw [e50]; show (i 0).val / 512 * 512 ≤ (i 0).val ∧ (i 0).val < (i 0).val / 512 * 512 + 512; omega
  | ⟨1, _⟩ => show win0_5.index _ (1 : Fin 2) * 8 ≤ (i 1).val ∧ (i 1).val < win0_5.index _ (1 : Fin 2) * 8 + 8; rw [e51]; omega

/-- After the run the output array is the dense formula over the batch and the four arrays the host operations made. -/
theorem final (c : Dev nD) :
    (dats m 0 c).arrAt 5 cfg0.N
      = DenseArr (V m c main_arg0) (V m c main_call0_v7) (V m c main_call0_v16) (V m c main_call0_v15) (V m c main_call0_v17) := by
  exact (dats m 0 c).arrAt_eq_of_cover 5 _ (fun t _ => flushed_eq m c t) cover

end Cert.KernelIdeal.Blocks

end
-- ==== Proof.LibScatterGather.lean ====
/-
  A scatter-add and a gather read at an entry.

  `jax.ops.segment_sum` prints as a `stablehlo.scatter` with an `add` body whose scatter indices are the `[n, 1]` column of
  segment numbers, and `x[:, cols]` as a `stablehlo.gather` whose start indices are the `[n, 1]` column of positions. Over
  the extended reals the scatter-add's result at an entry is the operand's entry plus the sum of the updates whose index
  word, read signed, names that entry (an update whose index is outside the operand is dropped), and the gather reads
  the operand at the index word read signed and clamped into the axis. The library states both over the records' own
  index arithmetic; here that arithmetic is read once for each of the three printed forms, at any extents.
-/
import Idealize.ShloMosaic.PureOps.Ideal
import Idealize.ShloMosaic.Lib.ValueIdx
import Idealize.ShloMosaic.Lib.ValueIdxRank1

noncomputable section

open scoped BigOperators

namespace Cert.Lib.ScatterGather

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  split
  · next h =>
    constructor
    · intro heq a
      have h1 := congrFun (Option.some.inj heq) a
      have h2 := congrArg Fin.val h1
      simp only at h2
      have := h a
      omega
    · intro hall
      congr 1
      funext a
      apply Fin.ext
      show (d.start j idx a + d.window j a).toNat = (i a).val
      have := hall a
      omega
  · next h =>
    constructor
    · intro heq; cases heq
    · intro hall
      exfalso; apply h
      intro a
      have := hall a
      have := (i a).isLt
      omega

/-- The vector form's start on the operand's one axis: the index word of the update, read signed. -/
private theorem vec_start {N n w : Nat} (d : ScatterDims ⟨1, ![N]⟩ ⟨2, ![n, 1]⟩ ⟨1, ![n]⟩)
    (hsd : d.scatterDimsToOperandDims = [0]) (hiv : d.indexVectorDim = 1)
    (idx : IVec ⟨2, ![n, 1]⟩ w) (e : Fin n) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have e' : ∀ X : Fin 1, ((ix1 e : (⟨1, ![n]⟩ : Shape).Idx) X).val = e.val := fun X => by
      have hX : X = 0 := Subsingleton.elim _ _
      subst hX; rfl
    exact e' _
  | ⟨1, _⟩ =>
    unfold ScatterDims.siIdx
    rw [dif_pos (by rw [hiv])]
    apply Fin.ext
    show List.idxOf (0 : Fin 1) d.scatterDimsToOperandDims = 0
    rw [hsd]; simp

/-- The vector form has no window: the operand's one axis is inserted. -/
private theorem vec_window {N n : Nat} (d : ScatterDims ⟨1, ![N]⟩ ⟨2, ![n, 1]⟩ ⟨1, ![n]⟩)
    (hiw : d.insertedWindowDims = [0]) (e : Fin n) : d.window (ix1 e) 0 = 0 := by
  have hk : (0 : Fin 1) ∉ d.sKept := by
    simp [ScatterDims.sKept, Shape.kept, hiw]
  unfold ScatterDims.window
  rw [dif_neg hk]

/-- The vector form's update `e` lands at entry `f` exactly when its index word, read signed, is `f`. -/
private theorem vec_resultIdx {N n w : Nat} (d : ScatterDims ⟨1, ![N]⟩ ⟨2, ![n, 1]⟩ ⟨1, ![n]⟩)
    (hiw : d.insertedWindowDims = [0]) (hsd : d.scatterDimsToOperandDims = [0]) (hiv : d.indexVectorDim = 1)
    (idx : IVec ⟨2, ![n, 1]⟩ w) (e : Fin n) (f : Fin N) :
    d.resultIdx? (ix1 e) idx = some (ix1 f) ↔ (idx (ix2 e (0 : Fin 1))).toInt = (f.val : ℤ) := by
  rw [resultIdx?_eq_some_iff]
  constructor
  · intro h
    have h0 := h 0
    rw [vec_start d hsd hiv, vec_window d hiw] at h0
    have h0' : (idx (ix2 e (0 : Fin 1))).toInt + ((0 : ℕ) : ℤ) = (f.val : ℤ) := h0
    simpa using h0'
  · intro h a
    obtain rfl : a = 0 := Subsingleton.elim _ _
    rw [vec_start d hsd hiv, vec_window d hiw]
    show (idx (ix2 e (0 : Fin 1))).toInt + ((0 : ℕ) : ℤ) = (f.val : ℤ)
    simpa using h

/-- A scatter-add of `n` scalar updates into a vector of `N`: entry `f` gains the updates whose index word is `f`. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (f : Fin N) :
    Ideal.hostScatterAdd d x idx upd (ix1 f)
      = x (ix1 f) + ∑ e ∈ Finset.univ.filter (fun e : Fin n => (idx (ix2 e (0 : Fin 1))).toInt = (f.val : ℤ)), upd (ix1 e) := by
  unfold Ideal.hostScatterAdd
  show x (ix1 f) + _ = x (ix1 f) + _
  congr 1
  rw [Finset.sum_filter, Finset.sum_filter, ← Equiv.sum_comp (idxEquiv1 (n := n)).symm]
  apply Finset.sum_congr rfl
  intro e _
  show (if d.resultIdx? (ix1 e) idx = some (ix1 f) then upd (ix1 e) else 0) = _
  by_cases h : (idx (ix2 e (0 : Fin 1))).toInt = (f.val : ℤ)
  · rw [if_pos h, if_pos ((vec_resultIdx d hiw hsd hiv idx e f).2 h)]
  · rw [if_neg h, if_neg (fun h' => h ((vec_resultIdx d hiw hsd hiv idx e f).1 h'))]

/-- On a rank-2 shape an axis that is not the second is the first. -/
private theorem fin2_eq_zero_of_ne_one (X : Fin 2) (h : X ≠ 1) : X = 0 := by
  match X with
  | ⟨0, _⟩ => rfl
  | ⟨1, _⟩ => exact absurd rfl h

/-- The two axes of a rank-2 shape are distinct. -/
private theorem fin2_one_ne_zero : (1 : Fin 2) ≠ 0 := by decide

/-- The two axes of a rank-2 shape are distinct, the other way round. -/
private theorem fin2_zero_ne_one : (0 : Fin 2) ≠ 1 := by decide

/-- On a rank-2 shape an axis that is not the first is the second. -/
private theorem fin2_eq_one_of_ne_zero (X : Fin 2) (h : X ≠ 0) : X = 1 := by
  match X with
  | ⟨0, _⟩ => exact absurd rfl h
  | ⟨1, _⟩ => rfl

/-- The rows form's start on the operand's axis 0: the index word of the update's row, read signed. -/
private theorem rows_start0 {R C n w : Nat} (d : ScatterDims ⟨2, ![R, C]⟩ ⟨2, ![n, 1]⟩ ⟨2, ![n, C]⟩)
    (huw : d.updateWindowDims = [1]) (hsd : d.scatterDimsToOperandDims = [0]) (hiv : d.indexVectorDim = 1)
    (idx : IVec ⟨2, ![n, 1]⟩ w) (e : Fin n) (b' : Fin C) :
    d.start (ix2 e b') idx 0 = (idx (ix2 e (0 : Fin 1))).toInt := by
  have hm : (0 : Fin 2) ∈ d.scatterDimsToOperandDims := by rw [hsd]; exact List.mem_singleton.mpr rfl
  have hus : ∀ X : Fin 2, X ∈ d.uScatter → X = 0 := by
    intro X hX
    apply fin2_eq_zero_of_ne_one
    intro h1
    have : X ∉ d.updateWindowDims := by
      simpa [ScatterDims.uScatter, Shape.kept] using hX
    rw [huw] at this
    exact this (List.mem_singleton.mpr h1)
  unfold ScatterDims.start
  rw [dif_pos hm]
  congr 2
  funext c
  match c with
  | ⟨0, _⟩ =>
    unfold ScatterDims.siIdx
    rw [dif_neg (by rw [hiv]; simp)]
    unfold ScatterDims.siCoord
    apply Fin.ext
    simp only [Fin.val_cast]
    have e' : ∀ X : Fin 2, X = 0 → ((ix2 e b' : (⟨2, ![n, C]⟩ : Shape).Idx) X).val = e.val := fun X hX => by
      subst hX; rfl
    exact e' _ (hus _ (List.getElem_mem _))
  | ⟨1, _⟩ =>
    unfold ScatterDims.siIdx
    rw [dif_pos (by rw [hiv])]
    apply Fin.ext
    show List.idxOf (0 : Fin 2) d.scatterDimsToOperandDims = 0
    rw [hsd]; simp

/-- The rows form's start on the operand's axis 1 is zero: the map does not name it. -/
private theorem rows_start1 {R C n w : Nat} (d : ScatterDims ⟨2, ![R, C]⟩ ⟨2, ![n, 1]⟩ ⟨2, ![n, C]⟩)
    (hsd : d.scatterDimsToOperandDims = [0])
    (idx : IVec ⟨2, ![n, 1]⟩ w) (j : (⟨2, ![n, C]⟩ : Shape).Idx) :
    d.start j idx 1 = 0 := by
  have hm : (1 : Fin 2) ∉ d.scatterDimsToOperandDims := by
    intro h; rw [hsd] at h; exact fin2_one_ne_zero (List.mem_singleton.mp h)
  unfold ScatterDims.start
  rw [dif_neg hm]

/-- The rows form's window coordinate on the operand's axis 0 is zero: that axis is inserted. -/
private theorem rows_window0 {R C n : Nat} (d : ScatterDims ⟨2, ![R, C]⟩ ⟨2, ![n, 1]⟩ ⟨2, ![n, C]⟩)
    (hiw : d.insertedWindowDims = [0]) (j : (⟨2, ![n, C]⟩ : Shape).Idx) : d.window j 0 = 0 := by
  have hk : (0 : Fin 2) ∉ d.sKept := by
    simp [ScatterDims.sKept, Shape.kept, hiw]
  unfold ScatterDims.window
  rw [dif_neg hk]

/-- The rows form's window coordinate on the operand's axis 1: the update's coordinate on its window axis. -/
private theorem rows_window1 {R C n : Nat} (d : ScatterDims ⟨2, ![R, C]⟩ ⟨2, ![n, 1]⟩ ⟨2, ![n, C]⟩)
    (huw : d.updateWindowDims = [1]) (hiw : d.insertedWindowDims = [0]) (e : Fin n) (b' : Fin C) :
    d.window (ix2 e b') 1 = b'.val := by
  have hk : (1 : Fin 2) ∈ d.sKept := by
    simp [ScatterDims.sKept, Shape.kept, hiw]
  have huwm : ∀ X : Fin 2, X ∈ d.updateWindowDims → X = 1 := by
    intro X hX; rw [huw] at hX; exact List.mem_singleton.mp hX
  unfold ScatterDims.window
  rw [dif_pos hk]
  have e' : ∀ X : Fin 2, X = 1 → ((ix2 e b' : (⟨2, ![n, C]⟩ : Shape).Idx) X).val = b'.val := fun X hX => by
    subst hX; rfl
  exact e' _ (huwm _ (List.getElem_mem _))

/-- The rows form's update `(e, b')` lands at `(o, b)` exactly when its row's index word, read signed, is `o` and its
    column is `b`. -/
private theorem rows_resultIdx {R C n w : Nat} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (idx : IVec ⟨2, ![n, 1]⟩ w) (e : Fin n) (b' : Fin C) (o : Fin R) (b : Fin C) :
    d.resultIdx? (ix2 e b') idx = some (ix2 o b) ↔ (idx (ix2 e (0 : Fin 1))).toInt = (o.val : ℤ) ∧ b' = b := by
  rw [resultIdx?_eq_some_iff]
  constructor
  · intro h
    have h0 := h 0
    have h1 := h 1
    rw [rows_start0 d huw hsd hiv, rows_window0 d hiw] at h0
    rw [rows_start1 d hsd, rows_window1 d huw hiw] at h1
    have h0' : (idx (ix2 e (0 : Fin 1))).toInt + ((0 : ℕ) : ℤ) = (o.val : ℤ) := h0
    refine ⟨by simpa using h0', Fin.ext ?_⟩
    have h1' : (0 : ℤ) + (b'.val : ℤ) = (b.val : ℤ) := h1
    omega
  · rintro ⟨h, rfl⟩ a
    match a with
    | ⟨0, _⟩ =>
      show d.start (ix2 e b') idx 0 + (d.window (ix2 e b') 0 : ℤ) = (o.val : ℤ)
      rw [rows_start0 d huw hsd hiv, rows_window0 d hiw]
      simpa using h
    | ⟨1, _⟩ =>
      show d.start (ix2 e b') idx 1 + (d.window (ix2 e b') 1 : ℤ) = (b'.val : ℤ)
      rw [rows_start1 d hsd, rows_window1 d huw hiw]
      simp

/-- A scatter-add of `n` rows of length `C` into an `[R, C]` matrix: row `o` gains, column by column, the update rows
    whose index word is `o`. -/
theorem scatterAdd_rows_apply {R C n w : Nat} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![n, 1]⟩ w) (upd : (⟨2, ![n, C]⟩ : Shape).Idx → EReal)
    (o : Fin R) (b : Fin C) :
    Ideal.hostScatterAdd d x idx upd (ix2 o b)
      = x (ix2 o b) + ∑ e ∈ Finset.univ.filter (fun e : Fin n => (idx (ix2 e (0 : Fin 1))).toInt = (o.val : ℤ)), upd (ix2 e b) := by
  unfold Ideal.hostScatterAdd
  show x (ix2 o b) + _ = x (ix2 o b) + _
  congr 1
  rw [Finset.sum_filter, Finset.sum_filter, sum_idx2]
  apply Finset.sum_congr rfl
  intro e _
  by_cases h : (idx (ix2 e (0 : Fin 1))).toInt = (o.val : ℤ)
  · rw [if_pos h, Finset.sum_eq_single b]
    · rw [if_pos ((rows_resultIdx d huw hiw hsd hiv idx e b o b).2 ⟨h, rfl⟩)]
    · intro b' _ hne
      rw [if_neg (fun h' => hne ((rows_resultIdx d huw hiw hsd hiv idx e b' o b).1 h').2)]
    · intro hb; exact absurd (Finset.mem_univ b) hb
  · rw [if_neg h]
    apply Finset.sum_eq_zero
    intro b' _
    rw [if_neg (fun h' => h ((rows_resultIdx d huw hiw hsd hiv idx e b' o b).1 h').1)]

/-- A gather of `n` whole columns out of an `[R, K]` matrix: entry `(b, e)` is the operand's entry in row `b` at the column
    the `e`-th index word names, read signed and clamped into `[0, K)`. -/
theorem gather_cols_apply {α : Type} {R K n w : Nat} (d : GatherDims ⟨2, ![R, K]⟩ ⟨2, ![n, 1]⟩ ⟨2, ![R, n]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hsl : d.sliceSizes = ![R, 1])
    (x : (⟨2, ![R, K]⟩ : Shape).Idx → α) (idx : IVec ⟨2, ![n, 1]⟩ w) (b : Fin R) (e : Fin n) (hK : 0 < K) :
    Host.gather d x idx (ix2 b e) = x (ix2 b ⟨min (idx (ix2 e (0 : Fin 1))).toInt.toNat (K - 1), by omega⟩) := by
  unfold Host.gather
  congr 1
  funext a
  apply Fin.ext
  have hb : ∀ a : Fin 2, a ∉ d.operandBatchingDims := by intro a; rw [hob]; exact List.not_mem_nil
  match a with
  | ⟨0, _⟩ =>
    -- axis 0 is an offset axis: no start, the result's coordinate on its offset axis
    have hm : (0 : Fin 2) ∉ d.startIndexMap := by
      intro h; rw [hsim] at h; exact fin2_zero_ne_one (List.mem_singleton.mp h)
    have hk : (0 : Fin 2) ∈ d.sKept := by
      rw [GatherDims.mem_sKept, hcoll, hob]
      exact ⟨fun h => fin2_zero_ne_one (List.mem_singleton.mp h), List.not_mem_nil⟩
    have hod : ∀ X : Fin 2, X ∈ d.offsetDims → X = 0 := by
      intro X hX; rw [hoff] at hX; exact List.mem_singleton.mp hX
    show d.start (ix2 b e) idx 0 + d.batchCoord (ix2 b e) 0 + d.offCoord (ix2 b e) 0 = b.val
    rw [GatherDims.batchCoord_eq_zero _ _ _ (hb 0)]
    unfold GatherDims.start GatherDims.offCoord
    rw [dif_neg hm, dif_pos hk]
    have e' : ∀ X : Fin 2, X = 0 → ((ix2 b e : (⟨2, ![R, n]⟩ : Shape).Idx) X).val = b.val := fun X hX => by
      subst hX; rfl
    rw [e' _ (hod _ (List.getElem_mem _))]
    omega
  | ⟨1, _⟩ =>
    -- axis 1 is collapsed and start-indexed: the index word read signed, clamped to the last column
    have hm : (1 : Fin 2) ∈ d.startIndexMap := by rw [hsim]; exact List.mem_singleton.mpr rfl
    have hk : (1 : Fin 2) ∉ d.sKept := by rw [GatherDims.mem_sKept, hcoll]; simp
    have hs1 : d.sliceSizes 1 = 1 := d.slice_collapsed 1 (by rw [hcoll]; exact List.mem_singleton.mpr rfl)
    have hbd : ∀ X : Fin 2, X ∈ d.batchDims → X = 1 := by
      intro X hX
      apply fin2_eq_one_of_ne_zero
      intro h0
      have : X ∉ d.offsetDims := by
        simpa [GatherDims.batchDims, Shape.kept] using hX
      rw [hoff] at this
      exact this (List.mem_singleton.mpr h0)
    show d.start (ix2 b e) idx 1 + d.batchCoord (ix2 b e) 1 + d.offCoord (ix2 b e) 1
      = min (idx (ix2 e (0 : Fin 1))).toInt.toNat (K - 1)
    rw [GatherDims.batchCoord_eq_zero _ _ _ (hb 1), GatherDims.offCoord_eq_zero _ _ _ hk, Nat.add_zero]
    unfold GatherDims.start
    rw [dif_pos hm]
    show min (idx _).toInt.toNat (K - d.sliceSizes 1) = min (idx (ix2 e (0 : Fin 1))).toInt.toNat (K - 1)
    rw [hs1]
    congr 3
    congr 1
    funext c
    match c with
    | ⟨0, _⟩ =>
      unfold GatherDims.siIdx
      rw [dif_neg (by rw [hivd]; simp)]
      unfold GatherDims.siCoord
      apply Fin.ext
      simp only [Fin.val_cast]
      have e' : ∀ X : Fin 2, X = 1 → ((ix2 b e : (⟨2, ![R, n]⟩ : Shape).Idx) X).val = e.val := fun X hX => by
        subst hX; rfl
      exact e' _ (hbd _ (List.getElem_mem _))
    | ⟨1, _⟩ =>
      unfold GatherDims.siIdx
      rw [dif_pos (by rw [hivd])]
      apply Fin.ext
      show List.idxOf (1 : Fin 2) d.startIndexMap = 0
      rw [hsim]; simp

end Cert.Lib.ScatterGather

end
-- ==== Proof.KernelHost.lean ====
/-
  The arrays the kernel's region finds, read at an entry.

  Before the region the host builds each layer's transposed dense weight matrix: the edges' packed words
  `column · n_out + row`, a scatter-add of the weights into a zero vector at those words, a change of float format (the
  identity over the extended reals) and a row-major reshape; and it reshapes each bias vector into a one-row matrix. So
  entry `(k, n)` of a weight matrix is the sum of the weights of the edges whose packed word is `k · n_out + n`, and a bias
  row's entry `(0, n)` is the bias vector's entry `n`.
-/
import proofs.«424612_j38869454029395_3_alg».proof.Proof.Gen.KernelIdeal.Frame
import proofs.«424612_j38869454029395_3_alg».proof.Proof.LibScatterGather
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The argument arrays at their literal types. -/
abbrev aX (c : Dev nD) : S4096x2048.Idx → EReal := m ((c : Thread nD τ).loc main_arg0)
abbrev aW1 (c : Dev nD) : S65536.Idx → EReal := m ((c : Thread nD τ).loc main_arg1)
abbrev aB1 (c : Dev nD) : S1024.Idx → EReal := m ((c : Thread nD τ).loc main_arg2)
abbrev aW2 (c : Dev nD) : S8192.Idx → EReal := m ((c : Thread nD τ).loc main_arg3)
abbrev aB2 (c : Dev nD) : S8.Idx → EReal := m ((c : Thread nD τ).loc main_arg4)
abbrev aC1o (c : Dev nD) : S65536.Idx → BitVec 32 := m ((c : Thread nD τ).loc main_arg5)
abbrev aC1i (c : Dev nD) : S65536.Idx → BitVec 32 := m ((c : Thread nD τ).loc main_arg6)
abbrev aC2o (c : Dev nD) : S8192.Idx → BitVec 32 := m ((c : Thread nD τ).loc main_arg7)
abbrev aC2i (c : Dev nD) : S8192.Idx → BitVec 32 := m ((c : Thread nD τ).loc main_arg8)

/-- A dense matrix built on the host from edges, read at an entry. The edges' packed words `ci e · O + co e` index a
scatter-add of the weights `w` into a zero vector of length `N = K · O`; a change of float format (the identity over the
extended reals) and the row-major reshape to `[K, O]` follow. Entry `(k, o)` is the flat vector at position `k · O + o`,
which the scatter-add leaves at zero plus the weights of the edges whose packed word is that position. -/
private theorem read_packed {N K O n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (hz : (⟨0, ![]⟩ : Shape).BroadcastsInDim ⟨1, ![N]⟩ (![] : Fin 0 → Fin 1))
    (hc : (⟨0, ![]⟩ : Shape).BroadcastsInDim ⟨1, ![n]⟩ (![] : Fin 0 → Fin 1))
    (hb : (⟨1, ![n]⟩ : Shape).BroadcastsInDim ⟨2, ![n, 1]⟩ (![0] : Fin 1 → Fin 2))
    (hs : (⟨1, ![N]⟩ : Shape).ShapeCasts ⟨2, ![K, O]⟩) (hbits : FTy.bits .bf16 < FTy.bits .f32) (hN : N = K * O)
    (ci co : (⟨1, ![n]⟩ : Shape).Idx → BitVec 32) (w : (⟨1, ![n]⟩ : Shape).Idx → EReal) (k : Fin K) (o : Fin O) :
    (shapeCast ⟨2, ![K, O]⟩
        (truncf .bf16
          (Host.scatterAdd (F := Ideal) d
            (broadcastInDim ⟨1, ![N]⟩ ![] hz (constant (F := Ideal) ⟨0, ![]⟩ .f32 0x00000000#32))
            (broadcastInDim ⟨2, ![n, 1]⟩ ![0] hb
              (addi (muli ci (broadcastInDim ⟨1, ![n]⟩ ![] hc (constantI ⟨0, ![]⟩ 32 (BitVec.ofNat 32 O)))) co))
            w)
          hbits)
        hs : (⟨2, ![K, O]⟩ : Shape).Idx → EReal) (ix2 k o)
      = ∑ e ∈ Finset.univ.filter (fun e : Fin n =>
          (ci (ix1 e) * BitVec.ofNat 32 O + co (ix1 e)).toInt = ((k.val * O + o.val : ℕ) : ℤ)), w (ix1 e) := by
  -- the index array at `(e, 0)` is edge `e`'s packed word
  have hidx : ∀ e : Fin n, (broadcastInDim ⟨2, ![n, 1]⟩ ![0] hb
      (addi (muli ci (broadcastInDim ⟨1, ![n]⟩ ![] hc (constantI ⟨0, ![]⟩ 32 (BitVec.ofNat 32 O)))) co)) (ix2 e (0 : Fin 1))
        = ci (ix1 e) * BitVec.ofNat 32 O + co (ix1 e) := by
    intro e
    refine broadcastInDim_apply _ _ _ _ (ix1 e) ?_
    intro a
    obtain rfl : a = 0 := Subsingleton.elim _ _
    by_cases h1 : (⟨1, ![n]⟩ : Shape).size 0 = 1
    · rw [if_pos h1]
      have hn : n = 1 := h1
      have := e.isLt
      show e.val = 0
      omega
    · rw [if_neg h1]
      rfl
  -- the flat position of `(k, o)`
  have hlt : k.val * O + o.val < N := by
    have h1 : (k.val + 1) * O ≤ K * O := Nat.mul_le_mul_right O k.isLt
    rw [Nat.add_mul, Nat.one_mul] at h1
    have h2 := o.isLt
    omega
  rw [shapeCast_apply _ hs (ix2 k o) (ix1 (⟨k.val * O + o.val, hlt⟩ : Fin N)) (by
    rw [Shape.rowMajor_val_two, Shape.rowMajor_val_one]; rfl)]
  rw [truncf_apply]
  show Ideal.hostScatterAdd d _ _ _ _ = _
  rw [Cert.Lib.ScatterGather.scatterAdd_vec_apply d huw hiw hsd hiv]
  show Ideal.ofBits .f32 0x00000000#32 + _ = _
  rw [Ideal.ofBits_zero_f32, zero_add]
  exact Finset.sum_congr (Finset.filter_congr fun e _ => by rw [hidx e]) fun e _ => rfl

/-- Entry `(k, n)` of the first layer's transposed weight matrix. -/
theorem V_w1t (c : Dev nD) (k : Fin 2048) (n : Fin 1024) :
    (V m c main_call0_v7 : S2048x1024.Idx → EReal) (ix2 k n)
      = ∑ e ∈ Finset.univ.filter (fun e : Fin 65536 =>
          (aC1i m c (ix1 e) * BitVec.ofNat 32 1024 + aC1o m c (ix1 e)).toInt = ((k.val * 1024 + n.val : ℕ) : ℤ)), aW1 m c (ix1 e) := by
  -- the array as the host operations' term, then that term read at the entry
  have e : (V m c main_call0_v7 : S2048x1024.Idx → EReal)
      = shapeCast S2048x1024
          (truncf .bf16
            (Host.scatterAdd (F := Ideal) scatter_S2097152_S65536x1_S65536_n_0_0_1
              (broadcastInDim S2097152 ![] bcast_S_S2097152 (constant (F := Ideal) S_ .f32 0x00000000#32))
              (broadcastInDim S65536x1 ![0] bcast_S65536_S65536x1_0
                (addi (muli (aC1i m c) (broadcastInDim S65536 ![] bcast_S_S65536 (constantI S_ 32 1024#32))) (aC1o m c)))
              (aW1 m c))
            bitsLt_bf16_f32)
          shapeCasts_S2097152_S2048x1024 := by
    dsimp only [Gen.V, Gen.hostOps0]
    after_results
    rfl
  exact (congrFun e _).trans
    (read_packed (K := 2048) (O := 1024) scatter_S2097152_S65536x1_S65536_n_0_0_1 rfl rfl rfl rfl bcast_S_S2097152
      bcast_S_S65536 bcast_S65536_S65536x1_0 shapeCasts_S2097152_S2048x1024 bitsLt_bf16_f32 (by norm_num)
      (aC1i m c) (aC1o m c) (aW1 m c) k n)

/-- Entry `(n, t)` of the second layer's transposed weight matrix. -/
theorem V_w2t (c : Dev nD) (n : Fin 1024) (t : Fin 8) :
    (V m c main_call0_v15 : S1024x8.Idx → EReal) (ix2 n t)
      = ∑ e ∈ Finset.univ.filter (fun e : Fin 8192 =>
          (aC2i m c (ix1 e) * BitVec.ofNat 32 8 + aC2o m c (ix1 e)).toInt = ((n.val * 8 + t.val : ℕ) : ℤ)), aW2 m c (ix1 e) := by
  -- the array as the host operations' term, then that term read at the entry
  have e : (V m c main_call0_v15 : S1024x8.Idx → EReal)
      = shapeCast S1024x8
          (truncf .bf16
            (Host.scatterAdd (F := Ideal) scatter_S8192_S8192x1_S8192_n_0_0_1
              (broadcastInDim S8192 ![] bcast_S_S8192 (constant (F := Ideal) S_ .f32 0x00000000#32))
              (broadcastInDim S8192x1 ![0] bcast_S8192_S8192x1_0
                (addi (muli (aC2i m c) (broadcastInDim S8192 ![] bcast_S_S8192 (constantI S_ 32 8#32))) (aC2o m c)))
              (aW2 m c))
            bitsLt_bf16_f32)
          shapeCasts_S8192_S1024x8 := by
    dsimp only [Gen.V, Gen.hostOps0]
    after_results
    rfl
  exact (congrFun e _).trans
    (read_packed (K := 1024) (O := 8) scatter_S8192_S8192x1_S8192_n_0_0_1 rfl rfl rfl rfl bcast_S_S8192
      bcast_S_S8192 bcast_S8192_S8192x1_0 shapeCasts_S8192_S1024x8 bitsLt_bf16_f32 (by norm_num)
      (aC2i m c) (aC2o m c) (aW2 m c) n t)

/-- The first bias row. -/
theorem V_b1 (c : Dev nD) (n : Fin 1024) :
    (V m c main_call0_v16 : S1x1024.Idx → EReal) (ix2 (0 : Fin 1) n) = aB1 m c (ix1 n) := by
  -- the array is the bias vector under the cast from [1024] to [1, 1024]
  have e : (V m c main_call0_v16 : S1x1024.Idx → EReal)
      = shapeCast S1x1024 (aB1 m c) shapeCasts_S1024_S1x1024 := by
    dsimp only [Gen.V, Gen.hostOps0]
    after_results
    rfl
  exact (congrFun e _).trans (shapeCast_a_1a_apply _ _ 0 n)

/-- The second bias row. -/
theorem V_b2 (c : Dev nD) (t : Fin 8) :
    (V m c main_call0_v17 : S1x8.Idx → EReal) (ix2 (0 : Fin 1) t) = aB2 m c (ix1 t) := by
  -- the array is the bias vector under the cast from [8] to [1, 8]
  have e : (V m c main_call0_v17 : S1x8.Idx → EReal)
      = shapeCast S1x8 (aB2 m c) shapeCasts_S8_S1x8 := by
    dsimp only [Gen.V, Gen.hostOps0]
    after_results
    rfl
  exact (congrFun e _).trans (shapeCast_a_1a_apply _ _ 0 t)

end Cert.KernelIdeal.HostArrays

end
-- ==== Proof.LibSparseLayer.lean ====
/-
  A sparse linear layer in two arrangements.

  A layer given by edges: edge `e` carries a weight `w e`, reads input column `ci e` and adds into output row `ro e`,
  so output `o` of batch row `p` is `∑_{e : ro e = o} x p (ci e) · w e + bias o` (`edgeLayer`). The same layer through its
  dense weight matrix `W k o = ∑_{e : ci e = k, ro e = o} w e`, the pair `(k, o)` packed into the one word
  `ci e · O + ro e`: `∑_k x p k · W k o + bias o` (`denseLayer`). Over the extended reals the two agree when every edge's row
  and column are in range (the packing is then injective and nothing wraps) and the inputs and weights are real numbers
  (a factor may be moved into a finite sum of reals; at an infinity it may not).
-/
import Idealize.ShloMosaic.PureOps.Ideal
import Idealize.ShloMosaic.Lib.ValueIdx

noncomputable section

open scoped BigOperators

namespace Cert.Lib.SparseLayer

open Idealize.ShloMosaic

variable {B K O E : Nat}

/-- A signed 32-bit word clamped into `[0, K)`: what a gather reads a column index as. -/
def col (K : Nat) (hK : 0 < K) (v : BitVec 32) : Fin K := ⟨min v.toInt.toNat (K - 1), by omega⟩

/-- The layer summed over its edges: output `o` collects the edges whose row word is `o`. -/
def edgeLayer (hK : 0 < K) (x : Fin B → Fin K → EReal) (w : Fin E → EReal) (bias : Fin O → EReal)
    (ro ci : Fin E → BitVec 32) (p : Fin B) (o : Fin O) : EReal :=
  (∑ e ∈ Finset.univ.filter (fun e : Fin E => (ro e).toInt = (o.val : ℤ)), x p (col K hK (ci e)) * w e) + bias o

/-- The layer through its dense matrix: entry `(k, o)` collects the edges whose packed word is `k · O + o`. -/
def denseLayer (x : Fin B → Fin K → EReal) (w : Fin E → EReal) (bias : Fin O → EReal)
    (ro ci : Fin E → BitVec 32) (p : Fin B) (o : Fin O) : EReal :=
  (∑ k : Fin K, x p k * ∑ e ∈ Finset.univ.filter
      (fun e : Fin E => (ci e * BitVec.ofNat 32 O + ro e).toInt = ((k.val * O + o.val : ℕ) : ℤ)), w e) + bias o

/-- A real sum is the sum of the reals, in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A word whose signed value is not negative has that value as its unsigned value, and it is below `2 ^ 31`. -/
private theorem toInt_nonneg (v : BitVec 32) (h : 0 ≤ v.toInt) : v.toInt = (v.toNat : ℤ) ∧ v.toNat < 2 ^ 31 := by
  have hlt := v.isLt
  rw [BitVec.toInt_eq_toNat_cond] at h ⊢
  split_ifs at h ⊢ with hc <;> omega

/-- Quotient and remainder by `O` are unique. -/
private theorem divmod_unique {O c r k o : ℕ} (hr : r < O) (ho : o < O) (h : c * O + r = k * O + o) :
    c = k ∧ r = o := by
  have hO : 0 < O := by omega
  have h1 : (c * O + r) % O = r := by rw [Nat.mul_add_mod_self_right]; exact Nat.mod_eq_of_lt hr
  have h2 : (k * O + o) % O = o := by rw [Nat.mul_add_mod_self_right]; exact Nat.mod_eq_of_lt ho
  have hro : r = o := by rw [← h1, ← h2, h]
  subst hro
  exact ⟨Nat.eq_of_mul_eq_mul_right hO (Nat.add_right_cancel h), rfl⟩

/-- With column word `c` in `[0, K)`, row word `r` in `[0, O)` and `K · O < 2 ^ 31`, the packed word `c · O + r` does not
wrap: its signed value is the natural number `c · O + r`. -/
private theorem packed_toInt {K O : ℕ} (hKO : K * O < 2 ^ 31) (c r : BitVec 32)
    (hc : 0 ≤ c.toInt ∧ c.toInt < (K : ℤ)) (hr : 0 ≤ r.toInt ∧ r.toInt < (O : ℤ)) :
    (c * BitVec.ofNat 32 O + r).toInt = ((c.toNat * O + r.toNat : ℕ) : ℤ) := by
  obtain ⟨hci, hc31⟩ := toInt_nonneg c hc.1
  obtain ⟨hri, hr31⟩ := toInt_nonneg r hr.1
  have hcK : c.toNat < K := by omega
  have hrO : r.toNat < O := by omega
  have hmul : (c.toNat + 1) * O ≤ K * O := Nat.mul_le_mul_right O hcK
  rw [Nat.add_mul, Nat.one_mul] at hmul
  have hOle : O ≤ K * O := Nat.le_mul_of_pos_left O (by omega)
  have hnat : (c * BitVec.ofNat 32 O + r).toNat = c.toNat * O + r.toNat := by
    rw [BitVec.toNat_add, BitVec.toNat_mul, BitVec.toNat_ofNat, Nat.mod_eq_of_lt (a := O) (by omega),
      Nat.mod_eq_of_lt (a := c.toNat * O) (by omega), Nat.mod_eq_of_lt (by omega)]
  rw [BitVec.toInt_eq_toNat_of_lt (by rw [hnat]; omega), hnat]

/-- The packed word of an edge is `k · O + o` exactly when its column is `k` and its row is `o`. -/
private theorem packed_iff {K O : ℕ} (hK : 0 < K) (hKO : K * O < 2 ^ 31) (c r : BitVec 32)
    (hc : 0 ≤ c.toInt ∧ c.toInt < (K : ℤ)) (hr : 0 ≤ r.toInt ∧ r.toInt < (O : ℤ)) (k : Fin K) (o : Fin O) :
    (c * BitVec.ofNat 32 O + r).toInt = ((k.val * O + o.val : ℕ) : ℤ) ↔ col K hK c = k ∧ r.toInt = (o.val : ℤ) := by
  obtain ⟨hci, _⟩ := toInt_nonneg c hc.1
  obtain ⟨hri, _⟩ := toInt_nonneg r hr.1
  have hcol : (col K hK c).val = c.toNat := by
    simp only [col]
    rw [hci, Int.toNat_natCast]
    omega
  rw [packed_toInt hKO c r hc hr, Fin.ext_iff, hcol, hri]
  constructor
  · intro h
    have hu := divmod_unique (by omega) o.isLt (Int.ofNat.inj h)
    exact ⟨hu.1, by rw [hu.2]⟩
  · rintro ⟨h1, h2⟩
    have h3 : r.toNat = o.val := Int.ofNat.inj h2
    rw [h1, h3]

/-- Regrouping a real double sum: the entries `∑_{e : key e = k, P e} wr e` against `xr k`, summed over `k`, are the sum
over the `e` with `P e` of `xr (key e) · wr e`. -/
private theorem sum_regroup {κ ε : Type} [Fintype κ] [Fintype ε] [DecidableEq κ] (key : ε → κ) (P : ε → Prop)
    [DecidablePred P] (xr : κ → ℝ) (wr : ε → ℝ) :
    ∑ k, xr k * ∑ e ∈ Finset.univ.filter (fun e => key e = k ∧ P e), wr e
      = ∑ e ∈ Finset.univ.filter P, xr (key e) * wr e := by
  simp_rw [Finset.mul_sum, Finset.sum_filter]
  rw [Finset.sum_comm]
  refine Finset.sum_congr rfl fun e _ => ?_
  by_cases hP : P e
  · simp [hP, Finset.sum_ite_eq]
  · simp [hP]

/-- The two arrangements agree for real inputs and weights and in-range rows and columns. -/
theorem dense_eq_edge (hK : 0 < K) (hKO : K * O < 2 ^ 31) (x : Fin B → Fin K → EReal) (w : Fin E → EReal)
    (bias : Fin O → EReal) (ro ci : Fin E → BitVec 32)
    (hx : ∀ p k, ∃ r : ℝ, x p k = (r : EReal)) (hw : ∀ e, ∃ r : ℝ, w e = (r : EReal))
    (hro : ∀ e, 0 ≤ (ro e).toInt ∧ (ro e).toInt < (O : ℤ)) (hci : ∀ e, 0 ≤ (ci e).toInt ∧ (ci e).toInt < (K : ℤ))
    (p : Fin B) (o : Fin O) :
    denseLayer x w bias ro ci p o = edgeLayer hK x w bias ro ci p o := by
  choose xr hxr using hx
  choose wr hwr using hw
  unfold denseLayer edgeLayer
  congr 1
  have hfilt : ∀ k : Fin K,
      Finset.univ.filter (fun e : Fin E => (ci e * BitVec.ofNat 32 O + ro e).toInt = ((k.val * O + o.val : ℕ) : ℤ))
        = Finset.univ.filter (fun e : Fin E => col K hK (ci e) = k ∧ (ro e).toInt = (o.val : ℤ)) := fun k =>
    Finset.filter_congr fun e _ => packed_iff hK hKO (ci e) (ro e) (hci e) (hro e) k o
  have hL : ∀ k : Fin K, x p k * ∑ e ∈ Finset.univ.filter
      (fun e : Fin E => (ci e * BitVec.ofNat 32 O + ro e).toInt = ((k.val * O + o.val : ℕ) : ℤ)), w e
      = ((xr p k * ∑ e ∈ Finset.univ.filter
          (fun e : Fin E => col K hK (ci e) = k ∧ (ro e).toInt = (o.val : ℤ)), wr e : ℝ) : EReal) := by
    intro k
    rw [hfilt k, hxr p k, EReal.coe_mul, coe_sum]
    exact congrArg _ (Finset.sum_congr rfl fun e _ => hwr e)
  have hR : ∀ e : Fin E, x p (col K hK (ci e)) * w e = ((xr p (col K hK (ci e)) * wr e : ℝ) : EReal) := by
    intro e
    rw [hxr, hwr, EReal.coe_mul]
  rw [Finset.sum_congr rfl fun k _ => hL k, Finset.sum_congr rfl fun e _ => hR e, ← coe_sum, ← coe_sum]
  exact congrArg _ (sum_regroup (fun e => col K hK (ci e)) (fun e => (ro e).toInt = (o.val : ℤ)) (xr p) wr)

/-- The logistic function takes every extended real to a real number (`0` at `-∞`, `1` at `+∞`). -/
theorem logistic_real (z : EReal) : ∃ r : ℝ, Ideal.logistic z = (r : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

end Cert.Lib.SparseLayer

end
-- ==== Proof.Spec.lean ====
/-
  The network both programs compute, as one function of the argument arrays.

  Two sparse linear layers with a logistic between them: layer 1 takes the `[4096, 2048]` batch through 65536 edges to
  1024 neurons, layer 2 takes the neurons through 8192 edges to 8 targets. `G` writes each layer as the reference does
  (a sum over the edges landing on an output), `Gdense` as the kernel does (a product with the dense weight matrix the
  edges add up to); `GArr` is `G` over the arrays' own index types. For real inputs and weights and in-range edges the
  two are one function (`Gdense_eq_G`): each layer by `Cert.Lib.SparseLayer.dense_eq_edge`, and the logistic of anything
  is a real number, so layer 2's input needs no hypothesis.
-/
import proofs.«424612_j38869454029395_3_alg».proof.Proof.LibSparseLayer

noncomputable section

open scoped BigOperators

namespace Cert.SparseMlp

open Idealize.ShloMosaic Idealize.ShloMosaic.ValueIdx Cert.Lib.SparseLayer

/-- Both layers summed over their edges. -/
def G (x : Fin 4096 → Fin 2048 → EReal) (w1 : Fin 65536 → EReal) (b1 : Fin 1024 → EReal) (w2 : Fin 8192 → EReal)
    (b2 : Fin 8 → EReal) (c1o c1i : Fin 65536 → BitVec 32) (c2o c2i : Fin 8192 → BitVec 32) : Fin 4096 → Fin 8 → EReal :=
  edgeLayer (K := 1024) (by decide) (fun p n => Ideal.logistic (edgeLayer (K := 2048) (by decide) x w1 b1 c1o c1i p n)) w2 b2 c2o c2i

/-- Both layers through their dense weight matrices. -/
def Gdense (x : Fin 4096 → Fin 2048 → EReal) (w1 : Fin 65536 → EReal) (b1 : Fin 1024 → EReal) (w2 : Fin 8192 → EReal)
    (b2 : Fin 8 → EReal) (c1o c1i : Fin 65536 → BitVec 32) (c2o c2i : Fin 8192 → BitVec 32) : Fin 4096 → Fin 8 → EReal :=
  denseLayer (fun p n => Ideal.logistic (denseLayer x w1 b1 c1o c1i p n)) w2 b2 c2o c2i

/-- The two arrangements of the network agree for real `x`, `w1`, `w2` and in-range edges. -/
theorem Gdense_eq_G (x : Fin 4096 → Fin 2048 → EReal) (w1 : Fin 65536 → EReal) (b1 : Fin 1024 → EReal) (w2 : Fin 8192 → EReal)
    (b2 : Fin 8 → EReal) (c1o c1i : Fin 65536 → BitVec 32) (c2o c2i : Fin 8192 → BitVec 32)
    (hx : ∀ p k, ∃ r : ℝ, x p k = (r : EReal)) (hw1 : ∀ e, ∃ r : ℝ, w1 e = (r : EReal)) (hw2 : ∀ e, ∃ r : ℝ, w2 e = (r : EReal))
    (h1o : ∀ e, 0 ≤ (c1o e).toInt ∧ (c1o e).toInt < ((1024 : ℕ) : ℤ)) (h1i : ∀ e, 0 ≤ (c1i e).toInt ∧ (c1i e).toInt < ((2048 : ℕ) : ℤ))
    (h2o : ∀ e, 0 ≤ (c2o e).toInt ∧ (c2o e).toInt < ((8 : ℕ) : ℤ)) (h2i : ∀ e, 0 ≤ (c2i e).toInt ∧ (c2i e).toInt < ((1024 : ℕ) : ℤ))
    (p : Fin 4096) (t : Fin 8) :
    Gdense x w1 b1 w2 b2 c1o c1i c2o c2i p t = G x w1 b1 w2 b2 c1o c1i c2o c2i p t := by
  unfold Gdense G
  have e1 : (fun (p : Fin 4096) (n : Fin 1024) => Ideal.logistic (denseLayer x w1 b1 c1o c1i p n))
      = fun p n => Ideal.logistic (edgeLayer (K := 2048) (by decide) x w1 b1 c1o c1i p n) :=
    funext fun p => funext fun n => congrArg Ideal.logistic
      (dense_eq_edge (by decide) (by decide) x w1 b1 c1o c1i hx hw1 h1o h1i p n)
  rw [e1]
  exact dense_eq_edge (by decide) (by decide) _ w2 b2 c2o c2i (fun p n => logistic_real _) hw2 h2o h2i p t

/-- `G` over the arrays as the programs hold them. -/
def GArr (X : (⟨2, ![4096, 2048]⟩ : Shape).Idx → EReal) (W1 : (⟨1, ![65536]⟩ : Shape).Idx → EReal)
    (B1 : (⟨1, ![1024]⟩ : Shape).Idx → EReal) (W2 : (⟨1, ![8192]⟩ : Shape).Idx → EReal) (B2 : (⟨1, ![8]⟩ : Shape).Idx → EReal)
    (C1o C1i : (⟨1, ![65536]⟩ : Shape).Idx → BitVec 32) (C2o C2i : (⟨1, ![8192]⟩ : Shape).Idx → BitVec 32) :
    (⟨2, ![4096, 8]⟩ : Shape).Idx → EReal :=
  fun i => G (fun p k => X (ix2 p k)) (fun e => W1 (ix1 e)) (fun n => B1 (ix1 n)) (fun e => W2 (ix1 e)) (fun t => B2 (ix1 t))
    (fun e => C1o (ix1 e)) (fun e => C1i (ix1 e)) (fun e => C2o (ix1 e)) (fun e => C2i (ix1 e)) (i 0) (i 1)

theorem GArr_apply (X : (⟨2, ![4096, 2048]⟩ : Shape).Idx → EReal) (W1 : (⟨1, ![65536]⟩ : Shape).Idx → EReal)
    (B1 : (⟨1, ![1024]⟩ : Shape).Idx → EReal) (W2 : (⟨1, ![8192]⟩ : Shape).Idx → EReal) (B2 : (⟨1, ![8]⟩ : Shape).Idx → EReal)
    (C1o C1i : (⟨1, ![65536]⟩ : Shape).Idx → BitVec 32) (C2o C2i : (⟨1, ![8192]⟩ : Shape).Idx → BitVec 32) (p : Fin 4096) (t : Fin 8) :
    GArr X W1 B1 W2 B2 C1o C1i C2o C2i (ix2 p t)
      = G (fun p k => X (ix2 p k)) (fun e => W1 (ix1 e)) (fun n => B1 (ix1 n)) (fun e => W2 (ix1 e)) (fun t => B2 (ix1 t))
          (fun e => C1o (ix1 e)) (fun e => C1i (ix1 e)) (fun e => C2o (ix1 e)) (fun e => C2i (ix1 e)) p t := rfl

end Cert.SparseMlp

end
-- ==== Proof.PreFacts.lean ====
/-
  What the precondition says of the arguments.

  The printed precondition is a conjunction of nine `jnp.all`s: five say that a float array's entries have absolute
  value below `+∞`, four that an index array's entries lie in `[0, n)` as signed words. Read entry by entry: the
  batch and both weight vectors hold real numbers, and every edge's row and column word is in range.
-/
import proofs.«424612_j38869454029395_3_alg».proof.Pre_finite_inputs
import Idealize.ShloMosaic.PureOps.Ideal
import Idealize.ShloMosaic.Lib.ReduceAll
import Idealize.ShloMosaic.Lib.StableHlo.Predicate

noncomputable section

namespace Cert.SparseMlp.Pre

open Idealize.ShloMosaic Cert.Pre_finite_inputs

variable [Cert.Pre_finite_inputs.Facts]

/-- The scalar shape has one index. -/
private theorem subsingleton_scalar : Subsingleton S_.Idx := ⟨fun _ _ => funext fun d => d.elim0⟩

/-- A pointwise `and` read at an index. -/
private theorem andi_apply {s : Shape} {w : Nat} (x y : IVec s w) (i : s.Idx) : andi x y i = IntOp.andi (x i) (y i) := rfl

/-- The pattern `0x7F800000` denotes `+∞`. -/
private theorem ofBits_inf : Ideal.ofBits .f32 0x7F800000#32 = (⊤ : EReal) := by
  simp [Ideal.ofBits, Ideal.ieee]

/-- An extended real whose absolute value `max x (-x)` is below `+∞` is a real: at `⊥` and at `⊤` the maximum is `⊤`. -/
private theorem real_of_abs_lt_top (x : EReal) (h : max x (-x) < ⊤) : ∃ r : ℝ, x = (r : EReal) := by
  induction x using EReal.rec with
  | bot => simp at h
  | top => simp at h
  | coe r => exact ⟨r, rfl⟩

/-- One element of `|a| < +∞`: the entry is a real. -/
private theorem float_elem {s : Shape} (hb : S_.BroadcastsInDim s ![]) (a : FVec Ideal s .f32) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  simp only [Ideal.cmp, StableHlo.Predicate.ofBool_eq_one_iff, decide_eq_true_eq] at h'
  exact real_of_abs_lt_top _ h'

/-- One element of `0 ≤ a ∧ a < N` as signed words: the entry's signed value is in `[0, n)`, `n` the signed value of `N`. -/
private theorem int_elem {s : Shape} (hb : S_.BroadcastsInDim s ![]) (a : IVec s 32) (N : BitVec 32) (n : ℕ)
    (hN : N.toInt = (n : ℤ)) (i : s.Idx)
    (h : andi (cmpi .sge a (broadcastInDim s ![] hb (constantI S_ 32 0#32)))
      (cmpi .slt a (broadcastInDim s ![] hb (constantI S_ 32 N))) i = 1#1) :
    0 ≤ (a i).toInt ∧ (a i).toInt < (n : ℤ) := by
  have h' : IntOp.andi (IntOp.cmpi .sge (a i) 0#32) (IntOp.cmpi .slt (a i) N) = 1#1 := h
  obtain ⟨h1, h2⟩ := IntOp.andi_eq_one.1 h'
  have h1' := IntOp.cmpi_sge.1 h1
  have h2' := IntOp.cmpi_slt.1 h2
  rw [hN] at h2'
  exact ⟨by simpa using h1', h2'⟩

/-- From the precondition: `x`, `w1`, `w2` are real-valued, and the four index arrays are in range. -/
theorem of_pre (a0 : FVec Ideal S4096x2048 .f32) (a1 : FVec Ideal S65536 .f32) (a2 : FVec Ideal S1024 .f32)
    (a3 : FVec Ideal S8192 .f32) (a4 : FVec Ideal S8 .f32) (a5 a6 : IVec S65536 32) (a7 a8 : IVec S8192 32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a3 i = (r : EReal))
      ∧ (∀ i, 0 ≤ (a5 i).toInt ∧ (a5 i).toInt < ((1024 : ℕ) : ℤ)) ∧ (∀ i, 0 ≤ (a6 i).toInt ∧ (a6 i).toInt < ((2048 : ℕ) : ℤ))
      ∧ (∀ i, 0 ≤ (a7 i).toInt ∧ (a7 i).toInt < ((8 : ℕ) : ℤ)) ∧ (∀ i, 0 ≤ (a8 i).toInt ∧ (a8 i).toInt < ((1024 : ℕ) : ℤ)) := by
  haveI := subsingleton_scalar
  -- the predicate at the scalar's one index: a nine-fold `and` of the nine reductions
  have h0 := congrFun h (fun a => a.elim0)
  dsimp only [fn, fn_part1, fn_part2, fn_part3] at h0
  simp only [andi_apply, IntOp.andi_eq_one] at h0
  obtain ⟨⟨⟨⟨⟨⟨⟨⟨e0, e1⟩, _⟩, e3⟩, _⟩, e5⟩, e6⟩, e7⟩, e8⟩ := h0
  -- each reduction by `and` that is 1 had a 1 at every element; each element read back
  exact ⟨fun i => float_elem _ a0 i (Host.reduce_andi_all _ _ _ _ _ e0 i),
    fun i => float_elem _ a1 i (Host.reduce_andi_all _ _ _ _ _ e1 i),
    fun i => float_elem _ a3 i (Host.reduce_andi_all _ _ _ _ _ e3 i),
    fun i => int_elem _ a5 1024#32 1024 (by decide) i (Host.reduce_andi_all _ _ _ _ _ e5 i),
    fun i => int_elem _ a6 2048#32 2048 (by decide) i (Host.reduce_andi_all _ _ _ _ _ e6 i),
    fun i => int_elem _ a7 8#32 8 (by decide) i (Host.reduce_andi_all _ _ _ _ _ e7 i),
    fun i => int_elem _ a8 1024#32 1024 (by decide) i (Host.reduce_andi_all _ _ _ _ _ e8 i)⟩

end Cert.SparseMlp.Pre

end
-- ==== Proof.KernelValue.lean ====
/-
  The kernel's run ends with its output array at the network's function of the arguments.

  The array after the run is the dense two-layer formula over the arrays the region finds (the blocks tile the output);
  those arrays are the batch itself, each layer's dense matrix summed from the edges' weights, and the bias rows (the
  host operations before the region); so the output is `Gdense` of the arguments, and under the precondition (real
  batch and weights, in-range edges) that is `G`.
-/
import proofs.«424612_j38869454029395_3_alg».proof.Defs
import proofs.«424612_j38869454029395_3_alg».proof.Proof.Gen.Pre_finite_inputs
import proofs.«424612_j38869454029395_3_alg».proof.Proof.Gen.KernelIdeal.Value
import proofs.«424612_j38869454029395_3_alg».proof.Proof.KernelBlocks
import proofs.«424612_j38869454029395_3_alg».proof.Proof.KernelHost
import proofs.«424612_j38869454029395_3_alg».proof.Proof.Spec
import proofs.«424612_j38869454029395_3_alg».proof.Proof.PreFacts

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.KernelIdeal.HostArrays

variable (m : (ℓ : Loc nD τ sig) → Buf (Elt Ideal) ℓ) (ρ : Dev nD → PrngReg)

/-- Entry `(p, t)` of the output array is the dense arrangement of the network over the argument arrays. -/
theorem arr_dense (c : Dev nD) (p : Fin 4096) (t : Fin 8) :
    (dats m 0 c).arrAt 5 cfg0.N (ix2 p t)
      = Cert.SparseMlp.Gdense (fun p k => aX m c (ix2 p k)) (fun e => aW1 m c (ix1 e)) (fun n => aB1 m c (ix1 n))
          (fun e => aW2 m c (ix1 e)) (fun t => aB2 m c (ix1 t)) (fun e => aC1o m c (ix1 e)) (fun e => aC1i m c (ix1 e))
          (fun e => aC2o m c (ix1 e)) (fun e => aC2i m c (ix1 e)) p t := by
  rw [Blocks.final]
  unfold Blocks.DenseArr Cert.SparseMlp.Gdense Cert.Lib.SparseLayer.denseLayer
  refine congrArg₂ (· + ·) (Finset.sum_congr rfl fun n _ => ?_) (V_b2 m c t)
  refine congrArg₂ (· * ·) (congrArg Ideal.logistic (congrArg₂ (· + ·) (Finset.sum_congr rfl fun k _ => ?_) (V_b1 m c n)))
    (V_w2t m c n t)
  exact congrArg₂ (· * ·) (congrFun (V_main_arg0 m c) (ix2 p k)) (V_w1t m c k n)

/-- Under the precondition the output array is `GArr` of the argument arrays. -/
theorem arr_G (hpre : Cert.Pre_KernelIdeal m) (c : Dev nD) :
    (dats m 0 c).arrAt 5 cfg0.N
      = Cert.SparseMlp.GArr (aX m c) (aW1 m c) (aB1 m c) (aW2 m c) (aB2 m c) (aC1o m c) (aC1i m c) (aC2o m c) (aC2i m c) := by
  obtain ⟨hx, hw1, hw2, h1o, h1i, h2o, h2i⟩ := Cert.SparseMlp.Pre.of_pre _ _ _ _ _ _ _ _ _ (hpre c)
  funext i
  obtain ⟨p, t, rfl⟩ : ∃ (p : Fin 4096) (t : Fin 8), i = ix2 p t := ⟨i 0, i 1, eq_ix2 i⟩
  rw [arr_dense, Cert.SparseMlp.GArr_apply]
  exact Cert.SparseMlp.Gdense_eq_G _ _ _ _ _ _ _ _ _ (fun p k => hx (ix2 p k)) (fun e => hw1 (ix1 e)) (fun e => hw2 (ix1 e))
    (fun e => h1o (ix1 e)) (fun e => h1i (ix1 e)) (fun e => h2o (ix1 e)) (fun e => h2i (ix1 e)) p t

/-- The kernel's run: every weakly fair execution ends with the result at `GArr` of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0)
        = Cert.SparseMlp.GArr (aX m c) (aW1 m c) (aB1 m c) (aW2 m c) (aB2 m c) (aC1o m c) (aC1i m c) (aC2o m c) (aC2i m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (arr_G m hpre c), (h c).2⟩) (Value.run_blocks m ρ)

end Cert.KernelIdeal.KernelValue

end
-- ==== Proof.RefValue.lean ====
/-
  The reference's result is the network's function of its arguments.

  Each layer of the reference gathers the input's columns the edges name (a negative column word first wrapped by the
  axis length, which changes nothing for a non-negative word), multiplies by the edge weights, scatter-adds the
  products into the rows the edges name and adds the bias; between the layers it applies `1 / (1 + exp (-z))`, which is
  the logistic. Entry by entry that is `GArr` of the arguments.
-/
import proofs.«424612_j38869454029395_3_alg».proof.Proof.Gen.ReferenceIdeal.Read
import proofs.«424612_j38869454029395_3_alg».proof.Proof.LibScatterGather
import proofs.«424612_j38869454029395_3_alg».proof.Proof.Spec
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- A word that is not negative is not below zero, so the wrap by the axis length leaves it. -/
private theorem select_wrap (v k : BitVec 32) (h : 0 ≤ v.toInt) :
    Scalar.select (IntOp.cmpi .slt v 0#32) (IntOp.addi v k) v = v := by
  have hc : ¬ IntOp.cmpi .slt v 0#32 = 1#1 := by
    rw [IntOp.cmpi_slt]
    have h0 : (0#32 : BitVec 32).toInt = 0 := by decide
    rw [h0]; omega
  exact if_neg hc

/-- Layer 1's column words as the gather reads them: the argument's words. -/
private theorem v5_apply (x6 : S65536.Idx → BitVec 32) (h6 : ∀ i, 0 ≤ (x6 i).toInt) (e : Fin 65536) :
    Read.val_main_v5 (F := Ideal) x6 (ix2 e (0 : Fin 1)) = x6 (ix1 e) := by
  rw [Read.val_main_v5_apply]
  have hi : Read.idx_main_v5 (ix2 e (0 : Fin 1)) = ix1 e := by
    funext a; match a with | ⟨0, _⟩ => rfl
  rw [hi, Read.val_main_v4_apply, Read.val_main_v1_apply, Read.val_main_v0_apply, Read.val_main_c_apply]
  exact select_wrap _ _ (h6 _)

/-- Layer 1's gathered entry: the input's entry at the edge's clamped column. -/
private theorem v6_apply (x0 : S4096x2048.Idx → EReal) (x6 : S65536.Idx → BitVec 32) (h6 : ∀ i, 0 ≤ (x6 i).toInt)
    (p : Fin 4096) (e : Fin 65536) :
    Read.val_main_v6 (F := Ideal) x0 x6 (ix2 p e)
      = x0 (ix2 p (Cert.Lib.SparseLayer.col 2048 (by decide) (x6 (ix1 e)))) := by
  unfold Read.val_main_v6
  rw [Cert.Lib.ScatterGather.gather_cols_apply _ rfl rfl rfl rfl rfl rfl rfl _ _ p e (by decide)]
  refine congrArg (fun c => x0 (ix2 p c)) (Fin.ext ?_)
  show min (Read.val_main_v5 (F := Ideal) x6 (ix2 e (0 : Fin 1))).toInt.toNat (2048 - 1) = _
  rw [v5_apply x6 h6 e]
  rfl

/-- Layer 1's weight, laid along the batch: the edge's weight. -/
private theorem v8_apply (x1 : S65536.Idx → EReal) (p : Fin 4096) (e : Fin 65536) :
    Read.val_main_v8 (F := Ideal) x1 (ix2 p e) = x1 (ix1 e) := by
  rw [Read.val_main_v8_apply, Read.val_main_v7_apply]
  congr 1
  funext a; match a with | ⟨0, _⟩ => rfl

/-- Layer 1's products, edge-major. -/
private theorem v10_apply (x0 : S4096x2048.Idx → EReal) (x1 : S65536.Idx → EReal) (x6 : S65536.Idx → BitVec 32)
    (h6 : ∀ i, 0 ≤ (x6 i).toInt) (e : Fin 65536) (p : Fin 4096) :
    Read.val_main_v10 (F := Ideal) x0 x1 x6 (ix2 e p)
      = x0 (ix2 p (Cert.Lib.SparseLayer.col 2048 (by decide) (x6 (ix1 e)))) * x1 (ix1 e) := by
  rw [Read.val_main_v10_apply]
  have hi : Read.idx_main_v10 (ix2 e p) = ix2 p e := by
    funext a; match a with | ⟨0, _⟩ => rfl | ⟨1, _⟩ => rfl
  rw [hi, Read.val_main_v9_apply, v6_apply x0 x6 h6 p e, v8_apply x1 p e]
  rfl

/-- Layer 1's accumulator starts at zero. -/
private theorem v11_apply (i : S1024x4096.Idx) : Read.val_main_v11 (F := Ideal) i = 0 := by
  rw [Read.val_main_v11_apply, Read.val_main_cst_apply]
  exact Ideal.ofBits_zero_f32

/-- Layer 1's row words as the scatter reads them: the argument's words. -/
private theorem v12_apply (x5 : S65536.Idx → BitVec 32) (e : Fin 65536) :
    Read.val_main_v12 (F := Ideal) x5 (ix2 e (0 : Fin 1)) = x5 (ix1 e) := by
  rw [Read.val_main_v12_apply]
  congr 1
  funext a; match a with | ⟨0, _⟩ => rfl

/-- Layer 1's scatter-add at neuron `n` and batch row `p`: the sum over the edges landing on `n`. -/
private theorem v13_apply (x0 : S4096x2048.Idx → EReal) (x1 : S65536.Idx → EReal) (x5 x6 : S65536.Idx → BitVec 32)
    (h6 : ∀ i, 0 ≤ (x6 i).toInt) (n : Fin 1024) (p : Fin 4096) :
    Read.val_main_v13 (F := Ideal) x0 x1 x5 x6 (ix2 n p)
      = ∑ e ∈ Finset.univ.filter (fun e : Fin 65536 => (x5 (ix1 e)).toInt = (n.val : ℤ)),
          x0 (ix2 p (Cert.Lib.SparseLayer.col 2048 (by decide) (x6 (ix1 e)))) * x1 (ix1 e) := by
  unfold Read.val_main_v13
  show Ideal.hostScatterAdd scatter_S1024x4096_S65536x1_S65536x4096_1_0_0_1 (Read.val_main_v11 (F := Ideal))
    (Read.val_main_v12 (F := Ideal) x5) (Read.val_main_v10 (F := Ideal) x0 x1 x6) (ix2 n p) = _
  rw [Cert.Lib.ScatterGather.scatterAdd_rows_apply _ rfl rfl rfl rfl, v11_apply, zero_add]
  simp only [v12_apply, v10_apply x0 x1 x6 h6]

/-- Layer 1 at neuron `n` and batch row `p`, before the logistic. -/
private theorem v17_apply (x0 : S4096x2048.Idx → EReal) (x1 : S65536.Idx → EReal) (x2 : S1024.Idx → EReal)
    (x5 x6 : S65536.Idx → BitVec 32) (h6 : ∀ i, 0 ≤ (x6 i).toInt) (p : Fin 4096) (n : Fin 1024) :
    Read.val_main_v17 (F := Ideal) x0 x1 x2 x5 x6 (ix2 p n)
      = Cert.Lib.SparseLayer.edgeLayer (K := 2048) (by decide) (fun p k => x0 (ix2 p k)) (fun e => x1 (ix1 e))
          (fun n => x2 (ix1 n)) (fun e => x5 (ix1 e)) (fun e => x6 (ix1 e)) p n := by
  rw [Read.val_main_v17_apply, Read.val_main_v14_apply, Read.val_main_v16_apply, Read.val_main_v15_apply]
  have hi : Read.idx_main_v14 (ix2 p n) = ix2 n p := by
    funext a; match a with | ⟨0, _⟩ => rfl | ⟨1, _⟩ => rfl
  have hj : Read.idx_main_v15 (Read.idx_main_v16 (ix2 p n)) = ix1 n := by
    funext a; match a with | ⟨0, _⟩ => rfl
  rw [hi, hj, v13_apply x0 x1 x5 x6 h6 n p]
  rfl

/-- The reference's `1 / (1 + exp (-z))` is the logistic of layer 1. -/
private theorem v23_apply (x0 : S4096x2048.Idx → EReal) (x1 : S65536.Idx → EReal) (x2 : S1024.Idx → EReal)
    (x5 x6 : S65536.Idx → BitVec 32) (i : S4096x1024.Idx) :
    Read.val_main_v23 (F := Ideal) x0 x1 x2 x5 x6 i = Ideal.logistic (Read.val_main_v17 (F := Ideal) x0 x1 x2 x5 x6 i) := by
  rw [Read.val_main_v23_apply, Read.val_main_v22_apply, Read.val_main_cst_2_apply, Read.val_main_v21_apply,
    Read.val_main_v20_apply, Read.val_main_cst_1_apply, Read.val_main_v19_apply, Read.val_main_v18_apply]
  simp only [Ideal.hostDivf_def, Ideal.addf_def, Ideal.hostUnary_exp_def, Ideal.hostNegf_def, Ideal.negf_def,
    Ideal.ofBits_def, Ideal.ofBits_one_f32]
  rfl

/-- Layer 2's column words as the gather reads them: the argument's words. -/
private theorem v29_apply (x8 : S8192.Idx → BitVec 32) (h8 : ∀ i, 0 ≤ (x8 i).toInt) (e : Fin 8192) :
    Read.val_main_v29 (F := Ideal) x8 (ix2 e (0 : Fin 1)) = x8 (ix1 e) := by
  rw [Read.val_main_v29_apply]
  have hi : Read.idx_main_v29 (ix2 e (0 : Fin 1)) = ix1 e := by
    funext a; match a with | ⟨0, _⟩ => rfl
  rw [hi, Read.val_main_v28_apply, Read.val_main_v25_apply, Read.val_main_v24_apply, Read.val_main_c_3_apply]
  exact select_wrap _ _ (h8 _)

/-- Layer 2's gathered entry: the logistic of layer 1 at the edge's clamped column. -/
private theorem v30_apply (x0 : S4096x2048.Idx → EReal) (x1 : S65536.Idx → EReal) (x2 : S1024.Idx → EReal)
    (x5 x6 : S65536.Idx → BitVec 32) (x8 : S8192.Idx → BitVec 32) (h8 : ∀ i, 0 ≤ (x8 i).toInt)
    (p : Fin 4096) (e : Fin 8192) :
    Read.val_main_v30 (F := Ideal) x0 x1 x2 x5 x6 x8 (ix2 p e)
      = Read.val_main_v23 (F := Ideal) x0 x1 x2 x5 x6 (ix2 p (Cert.Lib.SparseLayer.col 1024 (by decide) (x8 (ix1 e)))) := by
  unfold Read.val_main_v30
  rw [Cert.Lib.ScatterGather.gather_cols_apply _ rfl rfl rfl rfl rfl rfl rfl _ _ p e (by decide)]
  refine congrArg (fun c => Read.val_main_v23 (F := Ideal) x0 x1 x2 x5 x6 (ix2 p c)) (Fin.ext ?_)
  show min (Read.val_main_v29 (F := Ideal) x8 (ix2 e (0 : Fin 1))).toInt.toNat (1024 - 1) = _
  rw [v29_apply x8 h8 e]
  rfl

/-- Layer 2's weight, laid along the batch: the edge's weight. -/
private theorem v32_apply (x3 : S8192.Idx → EReal) (p : Fin 4096) (e : Fin 8192) :
    Read.val_main_v32 (F := Ideal) x3 (ix2 p e) = x3 (ix1 e) := by
  rw [Read.val_main_v32_apply, Read.val_main_v31_apply]
  congr 1
  funext a; match a with | ⟨0, _⟩ => rfl

/-- Layer 2's products, edge-major. -/
private theorem v34_apply (x0 : S4096x2048.Idx → EReal) (x1 : S65536.Idx → EReal) (x2 : S1024.Idx → EReal)
    (x3 : S8192.Idx → EReal) (x5 x6 : S65536.Idx → BitVec 32) (x8 : S8192.Idx → BitVec 32) (h8 : ∀ i, 0 ≤ (x8 i).toInt)
    (e : Fin 8192) (p : Fin 4096) :
    Read.val_main_v34 (F := Ideal) x0 x1 x2 x3 x5 x6 x8 (ix2 e p)
      = Read.val_main_v23 (F := Ideal) x0 x1 x2 x5 x6 (ix2 p (Cert.Lib.SparseLayer.col 1024 (by decide) (x8 (ix1 e))))
          * x3 (ix1 e) := by
  rw [Read.val_main_v34_apply]
  have hi : Read.idx_main_v34 (ix2 e p) = ix2 p e := by
    funext a; match a with | ⟨0, _⟩ => rfl | ⟨1, _⟩ => rfl
  rw [hi, Read.val_main_v33_apply, v30_apply x0 x1 x2 x5 x6 x8 h8 p e, v32_apply x3 p e]
  rfl

/-- Layer 2's accumulator starts at zero. -/
private theorem v35_apply (i : S8x4096.Idx) : Read.val_main_v35 (F := Ideal) i = 0 := by
  rw [Read.val_main_v35_apply, Read.val_main_cst_5_apply]
  exact Ideal.ofBits_zero_f32

/-- Layer 2's row words as the scatter reads them: the argument's words. -/
private theorem v36_apply (x7 : S8192.Idx → BitVec 32) (e : Fin 8192) :
    Read.val_main_v36 (F := Ideal) x7 (ix2 e (0 : Fin 1)) = x7 (ix1 e) := by
  rw [Read.val_main_v36_apply]
  congr 1
  funext a; match a with | ⟨0, _⟩ => rfl

/-- Layer 2's scatter-add at target `t` and batch row `p`: the sum over the edges landing on `t`. -/
private theorem v37_apply (x0 : S4096x2048.Idx → EReal) (x1 : S65536.Idx → EReal) (x2 : S1024.Idx → EReal)
    (x3 : S8192.Idx → EReal) (x5 x6 : S65536.Idx → BitVec 32) (x7 x8 : S8192.Idx → BitVec 32)
    (h8 : ∀ i, 0 ≤ (x8 i).toInt) (t : Fin 8) (p : Fin 4096) :
    Read.val_main_v37 (F := Ideal) x0 x1 x2 x3 x5 x6 x7 x8 (ix2 t p)
      = ∑ e ∈ Finset.univ.filter (fun e : Fin 8192 => (x7 (ix1 e)).toInt = (t.val : ℤ)),
          Read.val_main_v23 (F := Ideal) x0 x1 x2 x5 x6 (ix2 p (Cert.Lib.SparseLayer.col 1024 (by decide) (x8 (ix1 e))))
            * x3 (ix1 e) := by
  unfold Read.val_main_v37
  show Ideal.hostScatterAdd scatter_S8x4096_S8192x1_S8192x4096_1_0_0_1 (Read.val_main_v35 (F := Ideal))
    (Read.val_main_v36 (F := Ideal) x7) (Read.val_main_v34 (F := Ideal) x0 x1 x2 x3 x5 x6 x8) (ix2 t p) = _
  rw [Cert.Lib.ScatterGather.scatterAdd_rows_apply _ rfl rfl rfl rfl, v35_apply, zero_add]
  simp only [v36_apply, v34_apply x0 x1 x2 x3 x5 x6 x8 h8]

/-- The reference's staged result, for non-negative column words, is `GArr` of the arguments. -/
theorem val_eq (x0 : S4096x2048.Idx → EReal) (x1 : S65536.Idx → EReal) (x2 : S1024.Idx → EReal) (x3 : S8192.Idx → EReal)
    (x4 : S8.Idx → EReal) (x5 x6 : S65536.Idx → BitVec 32) (x7 x8 : S8192.Idx → BitVec 32)
    (h6 : ∀ i, 0 ≤ (x6 i).toInt) (h8 : ∀ i, 0 ≤ (x8 i).toInt) :
    Read.val_main_v41 (F := Ideal) x0 x1 x2 x3 x4 x5 x6 x7 x8 = Cert.SparseMlp.GArr x0 x1 x2 x3 x4 x5 x6 x7 x8 := by
  funext i
  obtain ⟨p, t, rfl⟩ : ∃ (p : Fin 4096) (t : Fin 8), i = ix2 p t := ⟨i 0, i 1, eq_ix2 i⟩
  rw [Cert.SparseMlp.GArr_apply]
  unfold Cert.SparseMlp.G
  rw [Read.val_main_v41_apply, Read.val_main_v38_apply, Read.val_main_v40_apply, Read.val_main_v39_apply]
  have hi : Read.idx_main_v38 (ix2 p t) = ix2 t p := by
    funext a; match a with | ⟨0, _⟩ => rfl | ⟨1, _⟩ => rfl
  have hj : Read.idx_main_v39 (Read.idx_main_v40 (ix2 p t)) = ix1 t := by
    funext a; match a with | ⟨0, _⟩ => rfl
  rw [hi, hj, v37_apply x0 x1 x2 x3 x5 x6 x7 x8 h8 t p]
  simp only [v23_apply, v17_apply x0 x1 x2 x5 x6 h6]
  rfl

end Cert.ReferenceIdeal.RefValue

end
-- ==== Proof.lean ====
/-
  Two fixed-connectivity sparse linear layers with a logistic between them, as a Pallas kernel and as a jnp reference.

  The reference computes each layer edge by edge: it gathers the input columns the edges name, multiplies by the edge
  weights and segment-sums the products into the rows the edges name, then adds the bias. The kernel first adds the
  edge weights up into each layer's dense (transposed) weight matrix — a scatter-add at the packed word
  `column · n_out + row` — and then runs, per block of 512 batch rows, two plain matrix products with the bias rows and
  the logistic. Over the extended reals the two are the same function of the arguments (`Cert.SparseMlp.GArr`) when the
  batch and the weights are real numbers, so that a factor may be moved into a sum, and every edge's row and column lie
  inside their axes, so that the packed word names exactly one matrix entry and neither program drops or clamps an edge;
  the precondition says both. The changes of float format in the kernel are the identity over the extended reals and
  the ideal pass rewrote nothing, so `preserves` is trivial. The kernel's two frames are the generated ones; the
  reference's is its generated run with the result dropped.
-/
import proofs.«424612_j38869454029395_3_alg».proof.Defs
import proofs.«424612_j38869454029395_3_alg».proof.Proof.Gen.Kernel
import proofs.«424612_j38869454029395_3_alg».proof.Proof.Gen.Kernel.Skeleton
import proofs.«424612_j38869454029395_3_alg».proof.Proof.Gen.Kernel.Launch
import proofs.«424612_j38869454029395_3_alg».proof.Proof.Gen.Kernel.Points
import proofs.«424612_j38869454029395_3_alg».proof.Proof.Gen.Kernel.Frame
import proofs.«424612_j38869454029395_3_alg».proof.Proof.Gen.KernelIdeal
import proofs.«424612_j38869454029395_3_alg».proof.Proof.Gen.KernelIdeal.Skeleton
import proofs.«424612_j38869454029395_3_alg».proof.Proof.Gen.KernelIdeal.Launch
import proofs.«424612_j38869454029395_3_alg».proof.Proof.Gen.KernelIdeal.Points
import proofs.«424612_j38869454029395_3_alg».proof.Proof.Gen.KernelIdeal.Frame
import proofs.«424612_j38869454029395_3_alg».proof.Proof.Gen.ReferenceIdeal
import proofs.«424612_j38869454029395_3_alg».proof.Proof.Gen.Pre_finite_inputs
import proofs.«424612_j38869454029395_3_alg».proof.Proof.Gen.KernelIdeal.Value
import proofs.«424612_j38869454029395_3_alg».proof.Proof.Gen.ReferenceIdeal.Run
import proofs.«424612_j38869454029395_3_alg».proof.Proof.Gen.ReferenceIdeal.Read
import proofs.«424612_j38869454029395_3_alg».proof.Proof.KernelValue
import proofs.«424612_j38869454029395_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at `GArr` of the arguments. -/
theorem algebraic : Cert.algebraic_KernelIdeal_ReferenceIdeal := by
  intro m ρ m' ρ' hpre hagree
  refine ⟨_, Cert.KernelIdeal.KernelValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨_, _, _, _, h1i, _, h2i⟩ := Cert.SparseMlp.Pre.of_pre _ _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.ReferenceIdeal.Read.val_main_v41_eq _ _ _ _ _ _ _ _ _).trans
    (Cert.ReferenceIdeal.RefValue.val_eq _ _ _ _ _ _ _ _ _ (fun i => (h1i i).1) (fun i => (h2i i).1))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
